-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x256 : Shape := ⟨3, ![1, 1, 256]⟩
abbrev S100000x256 : Shape := ⟨2, ![100000, 256]⟩
abbrev S768x256 : Shape := ⟨2, ![768, 256]⟩
abbrev S768 : Shape := ⟨1, ![768]⟩
abbrev S_ : Shape := ⟨0, ![]⟩

class Facts : Prop where
  bcast_S_S1x1x256 : S_.BroadcastsInDim S1x1x256 (![] : Fin 0 → Fin S1x1x256.rank)
  reducesTo_S1x1x256_S_d0_1_2 : S1x1x256.ReducesTo [0, 1, 2] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg0 : IVec S1 32) (main_arg5 : FVec F S768 .f32) (main_arg6 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_c_10 : IVec S_ 32 := constantI S_ 32 0#32
  let main_v29 : IVec S1 32 := broadcastInDim S1 ![] bcast_S_S1 main_c_10
  let main_v30 : IVec S1 1 := cmpi .sge main_arg0 main_v29
  let main_c_11 : IVec S_ 1 := constantI S_ 1 1#1
  let main_v31 : IVec S_ 1 := (fun x v => Host.reduce IntOp.andi x v reducesTo_S1_S_d0 h_S_) main_v30 main_c_11
  let main_v32 : IVec S_ 1 := andi main_v28 main_v31
  main_v32

def fn {F : FTy → Type} [FloatOps F] (main_arg0 : IVec S1 32) (main_arg1 : FVec F S1x1x256 .f32) (main_arg2 : FVec F S100000x256 .f32) (main_arg3 : FVec F S768x256 .f32) (main_arg4 : FVec F S768x256 .f32) (main_arg5 : FVec F S768 .f32) (main_arg6 : FVec F S768 .f32) : IVec S_ 1 :=
  let main_v0 : FVec F S1x1x256 .f32 := Host.absf main_arg1
  let main_cst : FVec F S_ .f32 := constant S_ .f32 0x7F800000#32
  let main_v1 : FVec F S1x1x256 .f32 := broadcastInDim S1x1x256 ![] bcast_S_S1x1x256 main_cst
  let main_v2 : IVec S1x1x256 1 := cmpf .olt main_v0 main_v1
  let main_c : IVec S_ 1 := constantI S_ 1 1#1
  let main_v3 : IVec S_ 1 := (fun x v => Host.reduce IntOp.andi x v reducesTo_S1x1x256_S_d0_1_2 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg0 main_arg5 main_arg6 main_v13 main_v16
-- ==== Kernel.lean ====
abbrev S1 : Shape := ⟨1, ![1]⟩
abbrev S1x1x256 : Shape := ⟨3, ![1, 1, 256]⟩
abbrev S100000x256 : Shape := ⟨2, ![100000, 256]⟩
abbrev S768x256 : Shape := ⟨2, ![768, 256]⟩
abbrev S768 : Shape := ⟨1, ![768]⟩
abbrev S_ : Shape := ⟨0, ![]⟩
abbrev S1x256 : Shape := ⟨2, ![1, 256]⟩
abbrev S1x768 : Shape := ⟨2, ![1, 768]⟩

abbrev nBuf : Space → Nat
  | .hbm => 19
  | .vmem => 7
  | .smem => 1
  | _ => 0

abbrev bufTy : (tb : Table) → Fin (tcTables nBuf tb) → BufTy
  | .hbm, ⟨0, _⟩ => ⟨S1, .i32⟩
  | .hbm, ⟨1, _⟩ => ⟨S1x1x256, .f32⟩
  | .hbm, ⟨2, _⟩ => ⟨S100000x256, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1x256, .f32⟩
  | .hbm, ⟨15, _⟩ => ⟨S1x768, .f32⟩
  | .hbm, ⟨16, _⟩ => ⟨S1x768, .f32⟩
  | .hbm, ⟨17, _⟩ => ⟨S1x256, .f32⟩
  | .hbm, ⟨18, _⟩ => ⟨S1x1x256, .f32⟩
  | .local _ .vmem, ⟨0, _⟩ => ⟨S1x256, .f32⟩
  | .local _ .vmem, ⟨1, _⟩ => ⟨S768x256, .f32⟩
  | .local _ .vmem, ⟨2, _⟩ => ⟨S768x256, .f32⟩
  | .local _ .vmem, ⟨3, _⟩ => ⟨S1x768, .f32⟩
  | .local _ .vmem, ⟨4, _⟩ => ⟨S1x768, .f32⟩
  | .local _ .vmem, ⟨5, _⟩ => ⟨S1x256, .f32⟩
  | .local _ .vmem, ⟨6, _⟩ => ⟨S1x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32 : BitVec 32 := 0#32
  ![v0.toNat, 0]

def k0_chk1 (v0 : BitVec 32) : Prop :=
  (∀ a, (k0_off1 v0) a + S1x256.size a ≤ S100000x256.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x256.size a ≤ S100000x256.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S1 : S_.BroadcastsInDim S1 (![] : Fin 0 → Fin S1.rank)
  shapeCasts_S1x1x256_S1x256 : S1x1x256.ShapeCasts S1x256
  shapeCasts_S768_S1x768 : S768.ShapeCasts S1x768
  inb_S1_S1_0 : ∀ a, (![0] : Fin 1 → Nat) a + S1.size a ≤ S1.size a
  numel1_S1 : S1.numel = 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S768x256_S768x256_0_0 : ∀ a, (![0, 0] : Fin 2 → Nat) a + S768x256.size a ≤ S768x256.size a
  h_S768x256 : 0 < S768x256.numel
  bitsLt_bf16_f32 : FTy.bits .bf16 < FTy.bits .f32
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S1x768_o0_0_S1x256 : S1x768.Slices ![0, 0] S1x256
  slices_S1x768_o0_256_S1x256 : S1x768.Slices ![0, 256] S1x256
  slices_S1x768_o0_512_S1x256 : S1x768.Slices ![0, 512] S1x256
  shapeCasts_S1x256_S1x1x256 : S1x256.ShapeCasts S1x1x256
  dot_S1x256_S768x256_S1x768_1_1_0_0_n_n_wf : DotDims.WF S1x256 S768x256 S1x768 [1] [1] [0] [0] [] []
  hcc0_scratch1 : 6 + S_.numel ≤ 7
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x256.size a ≤ S1x256.size a
  hwx0_0 : ∀ i : grid0.Coords, EltTy.bits .f32 = 32 ∨ (Rect.block (s := S1x256) S1x256.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S768x256.size a ≤ S768x256.size a
  hwx0_1 : ∀ i : grid0.Coords, EltTy.bits .f32 = 32 ∨ (Rect.block (s := S768x256) S768x256.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S768x256.size a ≤ S768x256.size a
  hwx0_2 : ∀ i : grid0.Coords, EltTy.bits .f32 = 32 ∨ (Rect.block (s := S768x256) S768x256.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x768.size a ≤ S1x768.size a
  hwx0_3 : ∀ i : grid0.Coords, EltTy.bits .f32 = 32 ∨ (Rect.block (s := S1x768) S1x768.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x768.size a ≤ S1x768.size a
  hwx0_4 : ∀ i : grid0.Coords, EltTy.bits .f32 = 32 ∨ (Rect.block (s := S1x768) S1x768.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x256.size a ≤ S1x256.size a
  hwx0_5 : ∀ i : grid0.Coords, EltTy.bits .f32 = 32 ∨ (Rect.block (s := S1x256) S1x256.size (cc0_transform_6 i) (hinb0_5 i)).WholeWords (EltTy.packing .f32)

variable [Facts₀]

abbrev cc0_scratch1 : DmaSems sig S_ := SemArray.consecutive 6 S_ hcc0_scratch1
def dot_S1x256_S768x256_S1x768_1_1_0_0_n_n : DotDims S1x256 S768x256 S1x768 where
  lhsContracting := [1]
  rhsContracting := [1]
  lhsNonContracting := [0]
  rhsNonContracting := [0]
  lhsBatch := []
  rhsBatch := []
  wf := dot_S1x256_S768x256_S1x768_1_1_0_0_n_n_wf

abbrev spec0_0 : Pipeline.WinSpec sig grid0.rank :=
  Pipeline.WinSpec.ofSpec (Memref.whole main_v1) S1x256.size reads0_0 false true 1 stage0_0 sem0_0 nbuf0_0 hstage0_0

abbrev spec0_1 : Pipeline.WinSpec sig grid0.rank :=
  Pipeline.WinSpec.ofSpec (Memref.whole main_arg3) S768x256.size reads0_1 false true 1 stage0_1 sem0_1 nbuf0_1 hstage0_1

abbrev spec0_2 : Pipeline.WinSpec sig grid0.rank :=
  Pipeline.WinSpec.ofSpec (Memref.whole main_arg4) S768x256.size reads0_2 false true 1 stage0_2 sem0_2 nbuf0_2 hstage0_2

abbrev spec0_3 : Pipeline.WinSpec sig grid0.rank :=
  Pipeline.WinSpec.ofSpec (Memref.whole main_v2) S1x768.size reads0_3 false true 1 stage0_3 sem0_3 nbuf0_3 hstage0_3

abbrev spec0_4 : Pipeline.WinSpec sig grid0.rank :=
  Pipeline.WinSpec.ofSpec (Memref.whole main_v3) S1x768.size reads0_4 false true 1 stage0_4 sem0_4 nbuf0_4 hstage0_4

abbrev spec0_5 : Pipeline.WinSpec sig grid0.rank :=
  Pipeline.WinSpec.ofSpec (Memref.whole main_v4) S1x256.size reads0_5 true true 1 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_1 | 1 => cc0_transform_2 | 2 => cc0_transform_3 | 3 => cc0_transform_4 | 4 => cc0_transform_5 | 5 => cc0_transform_6 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S1 : Shape := ⟨1, ![1]⟩
abbrev S1x1x256 : Shape := ⟨3, ![1, 1, 256]⟩
abbrev S100000x256 : Shape := ⟨2, ![100000, 256]⟩
abbrev S768x256 : Shape := ⟨2, ![768, 256]⟩
abbrev S768 : Shape := ⟨1, ![768]⟩
abbrev S_ : Shape := ⟨0, ![]⟩
abbrev S1x256 : Shape := ⟨2, ![1, 256]⟩
abbrev S256 : Shape := ⟨1, ![256]⟩
abbrev S256x768 : Shape := ⟨2, ![256, 768]⟩
abbrev S1x768 : Shape := ⟨2, ![1, 768]⟩

abbrev nBuf : Space → Nat
  | .hbm => 67
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x256, .f32⟩
  | .hbm, ⟨2, _⟩ => ⟨S100000x256, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x256, .f32⟩
  | .hbm, ⟨22, _⟩ => ⟨S256, .f32⟩
  | .hbm, ⟨23, _⟩ => ⟨S1x256, .f32⟩
  | .hbm, ⟨24, _⟩ => ⟨S1x256, .f32⟩
  | .hbm, ⟨25, _⟩ => ⟨S256x768, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S256x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x1x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_c_2 : Ref sig .tc := ⟨.hbm, 14, rfl⟩
abbrev main_v4 : Ref sig .tc := ⟨.hbm, 15, rfl⟩
abbrev main_c_3 : Ref sig .tc := ⟨.hbm, 16, rfl⟩
abbrev main_c_4 : Ref sig .tc := ⟨.hbm, 17, rfl⟩
abbrev main_v5 : Ref sig .tc := ⟨.hbm, 18, rfl⟩
abbrev main_c_5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  shapeCasts_S1_S_ : S1.ShapeCasts S_
  sliceFits_S100000x256_S1x256 : S100000x256.Slices (fun _ => 0) S1x256
  h_S_ : 0 < S_.numel
  shapeCasts_S1x256_S256 : S1x256.ShapeCasts S256
  bcast_S256_S1x256_1 : S256.BroadcastsInDim S1x256 (![1] : Fin 1 → Fin S1x256.rank)
  shapeCasts_S1x1x256_S1x256 : S1x1x256.ShapeCasts S1x256
  transposes_S768x256_S256x768_1_0 : S768x256.Transposes [1, 0] S256x768
  bcast_S768_S1x768_1 : S768.BroadcastsInDim S1x768 (![1] : Fin 1 → Fin S1x768.rank)
  slices_S1x768_S1x256_0_0 : S1x768.Slices ![0, 0] S1x256
  slices_S1x768_S1x256_0_256 : S1x768.Slices ![0, 256] S1x256
  slices_S1x768_S1x256_0_512 : S1x768.Slices ![0, 512] S1x256
  bcast_S_S1x256 : S_.BroadcastsInDim S1x256 (![] : Fin 0 → Fin S1x256.rank)
  bcast_S1x256_S1x1x256_1_2 : S1x256.BroadcastsInDim S1x1x256 (![1, 2] : Fin 2 → Fin S1x1x256.rank)
  dot_S1x256_S256x768_S1x768_1_0_0_1_n_n_wf : DotDims.WF S1x256 S256x768 S1x768 [1] [0] [0] [1] [] []

variable [Facts₀]

def dot_S1x256_S256x768_S1x768_1_0_0_1_n_n : DotDims S1x256 S256x768 S1x768 where
  lhsContracting := [1]
  rhsContracting := [0]
  lhsNonContracting := [0]
  rhsNonContracting := [1]
  lhsBatch := []
  rhsBatch := []
  wf := dot_S1x256_S256x768_S1x768_1_0_0_1_n_n_wf

class Facts : Prop extends Facts₀ where

variable [Facts]
-- ==== Proof.KRegion.lean ====
/-
  The pallas_call's surroundings, for the frame of `Kernel`.

  @main is: three stretches of host operations (two constants; the clip of the token id between 0 and 99999, whose result is
  the call's prefetched table, placed in scalar memory; three reshapes), the region, and one more reshape of the region's result.
  The region's six windows are whole-array blocks on a grid of one point, none of their index maps reads the table, so every
  table is admissible. The body copies ONE row of the embedding table, left in HBM, into a scratch buffer by a transfer of its own on
  a semaphore of its own and waits for it inside the point: the region's invariant therefore holds, besides the scratch buffer and the
  generator register, that semaphore at zero and the embedding table whole at its launch contents, and beside it the half share of the
  prefetched table the body reads its row number from.
-/
import proofs.«401761_j53102975648364_3_alg».proof.Proof.Gen.Kernel.Launch
import proofs.«401761_j53102975648364_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The host operations before the region, stretch by stretch, and those after it. -/
abbrev opsBefore : List (List (HloOp τ sig (Elt F))) := [hostOps0, hostOps0_1, hostOps0_2]
abbrev opsAfter : List (List (HloOp τ sig (Elt F))) := [hostOps1]

/-- Core `c`'s buffer contents when the region is entered: the launch contents after the host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, entered at `V`. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The prefetched table and the pipeline at its contents -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- No index map reads the table: any contents are admissible. -/
abbrev adm : (pcfg0 (F := F)).Adm := ⟨tbl m, trivial⟩
abbrev cfgM : Pipeline.Cfg sig Λ₀ := cfg0 (adm m)

/-- The table as the body is handed it: its whole buffer as a memref. -/
abbrev tbM : Memref sig .tc .smem S1 .i32 := Memref.whole main_v0
abbrev htbM : tbM.IsWhole := Memref.isWhole_whole _
abbrev TbBuf (c : Dev nD) {S : Shape} {e : EltTy} (M : Memref sig .tc .smem S e) : Type := Buf (Elt F) (M.view.loc (c : Thread nD τ))
/-- Held at HALF the full share: the body may read it, nothing may store into it. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The word the body reads from the table: its row number. -/
abbrev rowWord {c : Dev nD} (xt : TbBuf (F := F) c tbM) : Elt F .i32 :=
  tbM.view.readAt (Elt F) (Rect.unit (s := S1) ![0] S1.size inb_S1_S1_0).toLoadRect xt (Shape.Idx.first (numel1_S1.symm ▸ Nat.one_pos))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! ## The staging and scratch memrefs, the kernel's own semaphore, the operand it copies itself -/

abbrev VO5 : View sig .tc .vmem S1x256 .f32 := (Memref.whole cc0_stg5_0 : Memref sig .tc .vmem S1x256 .f32).view
abbrev ms0 (t : Fin (cfgM m).N) : Memref sig .tc .vmem S1x256 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S768x256 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S768x256 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x768 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x768 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x256 .f32 := spec0_5.stage ((cfgM m).slots t 5)
abbrev hs5 (t : Fin (cfgM m).N) : (ms5 m t).IsWhole := hstage0_5 (((cfgM m).slots t 5).cast nbuf0_5)
/-- The scratch buffer the row is copied into. -/
abbrev scM : Memref sig .tc .vmem S1x256 .f32 := Memref.whole cc0_scratch0
/-- The embedding table, left in HBM, whole. -/
abbrev hbM : Memref sig .tc .hbm S100000x256 .f32 := Memref.whole main_arg2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore: cell 6 of the pool, no window's. -/
abbrev osem : Fin 1 → SemLoc sig := fun j => (![SemLoc.dma 6] : Fin 1 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0) := by
  rw [Pipeline.ownSems0_eq_of_list c osem [0] (by decide) (by decide)]; rfl
/-- The operand the body moves itself: the embedding table. -/
def H : Finset (Ref sig .tc) := {main_arg2}
theorem H_sub : H ⊆ Pipeline.restRefsP sig pre0 spec0 := by decide
theorem hbmPts_eq (c : Dev nD) :
    (bigSep H (fun b => ((c : Thread nD τ).loc b) ↦{fullShare} V m c b) : sProp 𝕄) = iprop(hbPt c hbM (V m c main_arg2)) := by
  rw [BI.bigSep_eq_bigSepL_of_eq [main_arg2] (by decide) (by decide)]; rfl

/-- The invariant, conjunct by conjunct: the scratch buffer at some contents, the generator register at some state, the
    own semaphore at zero, the embedding table at its region-entry contents. -/
theorem PhiD_eq (c : Dev nD) :
    (Pipeline.ΦD osem spec0 H (V m) c : sProp 𝕄)
      = iprop(iprop((∃ d, owns (c : Thread nD τ) scM fullShare d)) ∗ (∃ r, prngReg c r) ∗ iprop(semVal ((c : Thread nD τ), SemLoc.dma 6) 0) ∗ iprop(hbPt c hbM (V m c main_arg2))) := by
  rw [Pipeline.ΦD_eq, scopedRest0_eq, ownSems0_eq, hbmPts_eq]; simp only [scM, owns_whole]; try rfl

/-! ## The reshape after the region -/

/-- It touches the pipeline's result array and its own result only: not the table, not the embedding table. -/
theorem sfx_but : ∀ ops ∈ ([hostOps1] : List (List (HloOp τ sig (Elt F)))), ∀ op ∈ ops,
    op.bufs ⊆ Pipeline.tailRefsBut sig pre0 spec0 H := by
  intro ops hops op hop
  simp only [List.mem_cons, List.mem_nil_iff, or_false] at hops
  rcases hops with rfl
  · refine Pipeline.sub_tailRefsBut pre0 spec0 H op ((List.forall_iff_forall_mem.mp hostOps1_sub) op hop) ?_ ?_
    · simp only [hostOps1, List.mem_cons, List.mem_nil_iff, or_false] at hop
      rcases hop with rfl
      all_goals intro j; fin_cases j <;> simp only [StableHlo.reshape_bufs, Finset.mem_insert, Finset.mem_singleton, not_or] <;> and_intros <;> exact StableHlo.devRef_ne_of_ne (by decide)
    · simp only [hostOps1, List.mem_cons, List.mem_nil_iff, or_false] at hop
      rcases hop with rfl
      all_goals intro b hb; simp only [H, Finset.mem_insert, Finset.mem_singleton] at hb
      all_goals rcases hb with rfl <;>
        simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

end Cert.Kernel.Region

end
-- ==== Proof.KRun.lean ====
/-
  The kernel body's run, for the frame of `Kernel`: on whole staging memrefs holding the five input blocks, the output's staging
  buffer and the scratch buffer at anything, the table's half share, the body's own semaphore at zero and the embedding table whole, the body
  runs to its end — the row's transfer issued, the hidden path computed meanwhile, the transfer waited for, the row read back from the
  scratch buffer — and leaves everything as it found it except the output's staging buffer, written with the pieces the run finds, and
  the scratch buffer, at some contents. The side condition the body assumes of the word it reads from the table (the row lies inside the
  embedding table) is a hypothesis here.
-/
import proofs.«401761_j53102975648364_3_alg».proof.Proof.KRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's store leaves in the output's staging memref, with the proof that the body runs. -/
noncomputable def kernelRun (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) :
    { L : List (View.Piece (Elt F) S1x256 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d) ∗ tbPt c tbM xt
            ∗ semVal ((c : Thread nD τ), SemLoc.dma 6) 0 ∗ hbPt c hbM fh ∗ owes (c : Thread nD τ) 0 W
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d) ∗ tbPt c tbM xt
                ∗ semVal ((c : Thread nD τ), SemLoc.dma 6) 0 ∗ hbPt c hbM fh ∗ (∃ W', owes (c : Thread nD τ) 0 W')) -∗ K ⟨⟩))
          ⊢ wp frame (wpE (defs₀ (F := F)) Variants.none c none) Set.univ
              (cc0__gru_kernel i tbM htbM hbM (Memref.isWhole_whole _) arg3 harg3 arg4 harg4 arg5 harg5 arg6 harg6 arg7 harg7 arg8 harg8 arg9 harg9 cc0_scratch1) K } := by
  refine ⟨?_, fun W K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, HT, Hq, Hh, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := first | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]
    · iexists _, _; isplitr; swap; · iexact HS
      ipureintro; rfl
    isplitl [HT]; · iexact HT
    isplitl [Hq]; · iexact Hq
    isplitl [Hh]; · iexact Hh
    iexists _; iexact HW

end Cert.Kernel.Region

end
-- ==== Proof.KFrame.lean ====
/-
  The frame run of `Kernel`: the proof data of its one pipeline, the body obligation, and the launch.

  After the body at the one grid point each input window's staging buffer still holds its block and the output's holds what the body
  stored. The region's invariant is the same before and after the point: the scratch buffer and the generator register at anything, the
  body's own semaphore at zero, the embedding table at its region-entry contents, and the half share of the prefetched table. The body's
  assumed side condition — the row the table's word names lies inside the embedding table — is a hypothesis of this module (`Hyp`).
-/
import proofs.«401761_j53102975648364_3_alg».proof.Proof.KRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side condition the body assumes, at the table's word as the region finds it. -/
def Hyp : Prop := ∀ c : Dev nD, k0_chk1 (rowWord (F := F) (c := c) (tbl m 0))

/-- The run's pieces for the output tile its block (one store of the whole block), so they cover it. -/
theorem cover (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) (y : S1x256.Idx) :
    ∃ pc ∈ (kernelRun c i arg3 harg3 arg4 harg4 arg5 harg5 arg6 harg6 arg7 harg7 arg8 harg8 arg9 harg9 x0 x1 x2 x3 x4 xt fh hw).1, y ∈ pc.1.set :=
  View.cover_of_tiledL (kernelRun c i arg3 harg3 arg4 harg4 arg5 harg5 arg6 harg6 arg7 harg7 arg8 harg8 arg9 harg9 x0 x1 x2 x3 x4 xt fh hw).1 S1x256.size (by sl_kernel_rfl) y

/-- What the run leaves in the output's staging buffer: its pieces read back. -/
def outOf (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) : Vec F S1x256 .f32 :=
  VO5.read (Elt F) (VO5.writes (Elt F) VO5.junk (kernelRun c i arg3 harg3 arg4 harg4 arg5 harg5 arg6 harg6 arg7 harg7 arg8 harg8 arg9 harg9 x0 x1 x2 x3 x4 xt fh hw).1)

/-- The output's staging buffer after the body at point `t`. -/
def outAt (hH : Hyp m) (c : Dev nD) (t : Fin (cfgM m).N) : Vec F S1x256 .f32 :=
  outOf c (grid0.coords t) (ms0 m t) (hs0 m t) (ms1 m t) (hs1 m t) (ms2 m t) (hs2 m t) (ms3 m t) (hs3 m t) (ms4 m t) (hs4 m t) (ms5 m t) (hs5 m t)
    scM (Memref.isWhole_whole _) (iblk m c 0 t) (iblk m c 1 t) (iblk m c 2 t) (iblk m c 3 t) (iblk m c 4 t) (tbl m 0) (V m c main_arg2) (hH c)

/-! ## The proof data -/

def dats (hH : Hyp m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m hH c t)
  Φ _ := iprop(Pipeline.ΦD osem spec0 H (V m) c ∗ Pipeline.ΦT pre0 (tbl m) c)
  q _ := fullShare
  owed _ := 0

theorem A_eq (hH : Hyp m) (c : Dev nD) (w : Fin (cfgM m).W) : (dats m hH 0 c).A w = V m c (Pipeline.arrRef spec0 w) := by
  dsimp only [dats]

theorem after0 (hH : Hyp m) (c : Dev nD) (t : Fin (cfgM m).N) : (dats m hH 0 c).after 0 t = iblk m c 0 t := by dsimp only [dats]; try rfl
theorem after1 (hH : Hyp m) (c : Dev nD) (t : Fin (cfgM m).N) : (dats m hH 0 c).after 1 t = iblk m c 1 t := by dsimp only [dats]; try rfl
theorem after2 (hH : Hyp m) (c : Dev nD) (t : Fin (cfgM m).N) : (dats m hH 0 c).after 2 t = iblk m c 2 t := by dsimp only [dats]; try rfl
theorem after3 (hH : Hyp m) (c : Dev nD) (t : Fin (cfgM m).N) : (dats m hH 0 c).after 3 t = iblk m c 3 t := by dsimp only [dats]; try rfl
theorem after4 (hH : Hyp m) (c : Dev nD) (t : Fin (cfgM m).N) : (dats m hH 0 c).after 4 t = iblk m c 4 t := by dsimp only [dats]; try rfl
theorem after5 (hH : Hyp m) (c : Dev nD) (t : Fin (cfgM m).N) : (dats m hH 0 c).after 5 t = (outAt m hH c t) := by dsimp only [dats]; try rfl

/-- Each input's current staging buffer holds its block at the point, fetched there or not. -/
theorem before0 (hH : Hyp m) (c : Dev nD) (t : Fin (cfgM m).N) (d) : (dats m hH 0 c).before 0 t d = iblk m c 0 t :=
  ((dats m hH 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hH : Hyp m) (c : Dev nD) (t : Fin (cfgM m).N) (d) : (dats m hH 0 c).before 1 t d = iblk m c 1 t :=
  ((dats m hH 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hH : Hyp m) (c : Dev nD) (t : Fin (cfgM m).N) (d) : (dats m hH 0 c).before 2 t d = iblk m c 2 t :=
  ((dats m hH 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hH : Hyp m) (c : Dev nD) (t : Fin (cfgM m).N) (d) : (dats m hH 0 c).before 3 t d = iblk m c 3 t :=
  ((dats m hH 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hH : Hyp m) (c : Dev nD) (t : Fin (cfgM m).N) (d) : (dats m hH 0 c).before 4 t d = iblk m c 4 t :=
  ((dats m hH 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- The kernel body at point `t`, on what the pipeline calls it with. -/
abbrev bodyAt (t : Fin (cfgM m).N) : Prog (TpuEff nD τ sig (Elt F) Λ₀ .tc) PUnit :=
  cc0__gru_kernel (grid0.coords t) tbM htbM hbM (Memref.isWhole_whole _) (ms0 m t) (hs0 m t) (ms1 m t) (hs1 m t) (ms2 m t) (hs2 m t)
    (ms3 m t) (hs3 m t) (ms4 m t) (hs4 m t) (ms5 m t) (hs5 m t) scM (Memref.isWhole_whole _) cc0_scratch1

def bodyPre (hH : Hyp m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d))
    ∗ (∃ d, owns (c : Thread nD τ) (ms4 m t) fullShare ((dats m hH 0 c).before 4 t d))
    ∗ (∃ d, owns (c : Thread nD τ) (ms5 m t) fullShare ((dats m hH 0 c).before 5 t d)))

def bodyPost (hH : Hyp m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t)
    ∗ owns (c : Thread nD τ) (ms4 m t) fullShare ((dats m hH 0 c).after 4 t)
    ∗ owns (c : Thread nD τ) (ms5 m t) fullShare ((dats m hH 0 c).after 5 t))

/-- The body at the point: the inputs' memrefs hold their blocks, so the run applies; the invariant hands the body its scratch buffer, the
    register, its semaphore at zero, the embedding table and the table's half share, and takes them back as they were. -/
theorem sound_body (hH : Hyp m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0, before1, before2, before3, before4]
  rw [show (dats m hH 0 c).Φ t.succ = (dats m hH 0 c).Φ t.castSucc from rfl,
    after0, after1, after2, after3, after4, after5]
  rw [show (dats m hH 0 c).Φ t.castSucc = iprop(Pipeline.ΦD osem spec0 H (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold outAt
  unfold outOf
  iintro ⟨⟨⟨HS, Hg, Hq, Hh⟩, HT⟩, ⟨%W, -, HW⟩, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t) (tbl m 0) (V m c main_arg2) (hH c)).2 W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT]; · iexact HT
  isplitl [Hq]; · iexact Hq
  isplitl [Hh]; · iexact Hh
  isplitl [HW]; · iexact HW
  iintro ⟨H0, H1, H2, H3, H4, ⟨%e5, H5⟩, HS, HT, Hq, Hh, ⟨%W', HW'⟩⟩
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _ _ _ _)

theorem body_obligation (hH : Hyp m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates, and every final state has each array of the pipeline at what the proof data give
    and every other unscoped buffer at what the reshape after the region leaves. -/
theorem run_main (hH : Hyp m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem defs₀ Variants.none ownSemFacts H H_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps)
    (hmain := hmain m Variants.none) (hA := A_eq m hH) (hpf := V_pre m) (hin := fun _ => .rfl)
    (hout := fun c => by
      show iprop(Pipeline.ΦD osem spec0 H (V m) c ∗ Pipeline.ΦT pre0 (tbl m) c) ⊢ Pipeline.ΦD osem spec0 H (V m) c
      iintro ⟨HD, -⟩; iexact HD)

end Cert.Kernel.Region

end
-- ==== Proof.KHost.lean ====
/-
  What the region finds in each buffer, for `Kernel`: the host operations before it read back.
-/
import proofs.«401761_j53102975648364_3_alg».proof.Proof.KRegion
import Idealize.ShloMosaic.Lib.StableHlo.Run

set_option maxRecDepth 16384

noncomputable section

namespace Cert.Kernel.Region

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- No host operation before the region writes an argument: the region finds each at its launch contents. -/
theorem V_main_arg0 (c : Dev nD) : V m c main_arg0 = m ((c : Thread nD τ).loc main_arg0) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg1 (c : Dev nD) : V m c main_arg1 = m ((c : Thread nD τ).loc main_arg1) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg2 (c : Dev nD) : V m c main_arg2 = m ((c : Thread nD τ).loc main_arg2) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg3 (c : Dev nD) : V m c main_arg3 = m ((c : Thread nD τ).loc main_arg3) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg4 (c : Dev nD) : V m c main_arg4 = m ((c : Thread nD τ).loc main_arg4) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg5 (c : Dev nD) : V m c main_arg5 = m ((c : Thread nD τ).loc main_arg5) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg6 (c : Dev nD) : V m c main_arg6 = m ((c : Thread nD τ).loc main_arg6) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results

/-- The hidden state as a row, and the two biases as rows: reshapes of the arguments. -/
theorem V_main_v1 (c : Dev nD) :
    (V m c main_v1 : S1x256.Idx → Elt F .f32) = shapeCast S1x256 (m ((c : Thread nD τ).loc main_arg1)) shapeCasts_S1x1x256_S1x256 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl
theorem V_main_v2 (c : Dev nD) :
    (V m c main_v2 : S1x768.Idx → Elt F .f32) = shapeCast S1x768 (m ((c : Thread nD τ).loc main_arg5)) shapeCasts_S768_S1x768 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl
theorem V_main_v3 (c : Dev nD) :
    (V m c main_v3 : S1x768.Idx → Elt F .f32) = shapeCast S1x768 (m ((c : Thread nD τ).loc main_arg6)) shapeCasts_S768_S1x768 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl

/-- The prefetched table: the token id clipped between 0 and 99999 (a signed maximum with 0, then a signed minimum with 99999). -/
theorem V_main_v0 (c : Dev nD) (i : S1.Idx) :
    (V m c main_v0 : S1.Idx → BitVec 32) i = IntOp.minsi (99999#32 : BitVec 32) (IntOp.maxsi (0#32 : BitVec 32) ((m ((c : Thread nD τ).loc main_arg0) : S1.Idx → BitVec 32) i)) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl

end Cert.Kernel.Region

end
-- ==== Proof.Spec.lean ====
/-
  The specification both programs meet: one step of a gated recurrent unit for one token, over the
  extended reals, index by index.

  The token selects a row of the embedding table once its id is clamped into the table (`row`). With `x` that row
  and `h` the hidden state, each of the 768 gate pre-activations is a row of the weight matrix against the vector
  plus a bias (`gate`): the input path `gi = W_ih · x + b_ih` and the hidden path `gh = W_hh · h + b_hh`. The 768
  entries are three blocks of 256 — reset, update, candidate (`g0`, `g1`, `g2`) — and the new state at unit `j` is

      r = σ(gi[j] + gh[j]),  z = σ(gi[256 + j] + gh[256 + j]),  n = tanh(gi[512 + j] + r · gh[512 + j]),
      h'[j] = (1 − z) · n + z · h[j]

  with `σ x = 1 / (1 + e^(−x))` the logistic function of the extended reals (`Ideal.logistic`). Nothing here needs a
  finite input: the two programs compute this same expression, so no law of the reals is used to join them.
-/
import Idealize.ShloMosaic.PureOps.Ideal
import Idealize.ShloMosaic.Lib.ValueIdx

noncomputable section

open scoped BigOperators

namespace Cert.Spec

open Idealize.ShloMosaic

/-- A token id, read signed, clamped into the rows `0 … 99999` of the table. -/
def row (x : BitVec 32) : Nat := (min (max x.toInt 0) 99999).toNat

theorem row_lt (x : BitVec 32) : row x < 100000 := by unfold row; omega

/-- The clamped id as a row of the table. -/
def rowFin (x : BitVec 32) : Fin 100000 := ⟨row x, row_lt x⟩

/-- An id that is not negative and inside the table is its own row. -/
theorem row_of_inb (x : BitVec 32) (h0 : 0 ≤ x.toInt) (h1 : x.toInt ≤ 99999) : (row x : Int) = x.toInt := by
  unfold row; omega

/-- One gate pre-activation: row `n` of the weights against the vector, plus the bias. -/
def gate (x : Fin 256 → EReal) (w : Fin 768 → Fin 256 → EReal) (b : Fin 768 → EReal) (n : Fin 768) : EReal :=
  (∑ k : Fin 256, x k * w n k) + b n

/-- Unit `j` of the reset block, of the update block, and of the candidate block. -/
def g0 (j : Fin 256) : Fin 768 := ⟨j.val, by omega⟩
def g1 (j : Fin 256) : Fin 768 := ⟨256 + j.val, by omega⟩
def g2 (j : Fin 256) : Fin 768 := ⟨512 + j.val, by omega⟩

/-- The new hidden state at unit `j`. -/
def gru (x h : Fin 256 → EReal) (wi wh : Fin 768 → Fin 256 → EReal) (bi bh : Fin 768 → EReal) (j : Fin 256) : EReal :=
  (1 - Ideal.logistic (gate x wi bi (g1 j) + gate h wh bh (g1 j)))
      * Ideal.tanh (gate x wi bi (g2 j) + Ideal.logistic (gate x wi bi (g0 j) + gate h wh bh (g0 j)) * gate h wh bh (g2 j))
    + Ideal.logistic (gate x wi bi (g1 j) + gate h wh bh (g1 j)) * h j

end Cert.Spec

end
-- ==== Proof.PreFacts.lean ====
/-
  The integer side of the claim: what the precondition says of the token id, and what the kernel's clip makes of it.
-/
import proofs.«401761_j53102975648364_3_alg».proof.Pre_finite_inputs
import proofs.«401761_j53102975648364_3_alg».proof.Proof.Gen.Pre_finite_inputs
import proofs.«401761_j53102975648364_3_alg».proof.Proof.Spec
import Idealize.ShloMosaic.Lib.ReduceAll
import Idealize.ShloMosaic.Lib.StableHlo.Predicate

noncomputable section

namespace Cert.PreFacts

open Idealize.ShloMosaic Idealize.ShloMosaic.ValueIdx

/-- Where the precondition holds, the token id, read signed, is not negative. -/
theorem nonneg_of_pre (a0 : IVec Cert.Pre_finite_inputs.S1 32) (a1 : FVec Ideal Cert.Pre_finite_inputs.S1x1x256 .f32)
    (a2 : FVec Ideal Cert.Pre_finite_inputs.S100000x256 .f32) (a3 a4 : FVec Ideal Cert.Pre_finite_inputs.S768x256 .f32)
    (a5 a6 : FVec Ideal Cert.Pre_finite_inputs.S768 .f32)
    (h : Cert.Pre_finite_inputs.fn (F := Ideal) a0 a1 a2 a3 a4 a5 a6 = fun _ => 1#1) :
    0 ≤ (a0 (ix1 (0 : Fin 1))).toInt := by
  -- a shape of rank 0 has exactly one index
  haveI : Subsingleton Cert.Pre_finite_inputs.S_.Idx := ⟨fun a b => funext fun d => d.elim0⟩
  -- the precondition at that one index: a conjunction of seven bits, the last of them "every id is ≥ 0, signed"
  have h0 := congrFun h ValueIdx.ix0
  dsimp only [Cert.Pre_finite_inputs.fn, Cert.Pre_finite_inputs.fn_part1] at h0
  change IntOp.andi _ _ = 1#1 at h0
  have h1 := (IntOp.andi_eq_one.1 h0).2
  -- a conjunction over all entries that is 1 is 1 at entry 0
  have h2 := Host.reduce_andi_all _ _ _ _ _ h1 (ix1 (0 : Fin 1))
  change IntOp.cmpi .sge _ _ = 1#1 at h2
  -- the signed comparison with the constant 0, read back
  exact IntOp.cmpi_sge.1 h2

/-- The kernel's clip of a word between 0 and 99999 (a signed maximum with 0, then a signed minimum with 99999), read
    unsigned, is the row the specification clamps the word to. -/
theorem clip_toNat (x : BitVec 32) :
    (IntOp.minsi (99999#32 : BitVec 32) (IntOp.maxsi (0#32 : BitVec 32) x)).toNat = Cert.Spec.row x := by
  have h0 : (0#32 : BitVec 32).toInt = 0 := by decide
  have h9 : (99999#32 : BitVec 32).toInt = 99999 := by decide
  have h0n : (0#32 : BitVec 32).toNat = 0 := by decide
  have h9n : (99999#32 : BitVec 32).toNat = 99999 := by decide
  have hx := BitVec.toInt_eq_toNat_cond x
  have hlt := x.isLt
  unfold IntOp.minsi IntOp.maxsi Cert.Spec.row
  by_cases h1 : x.slt 0#32 = true
  · -- x < 0: the maximum with 0 is 0, which the minimum with 99999 keeps; the specification clamps x to 0 as well
    rw [if_pos h1]
    have h2 : ¬ ((99999#32 : BitVec 32).slt 0#32 = true) := by decide
    rw [if_neg h2, h0n]
    rw [BitVec.slt_iff_toInt_lt, h0] at h1
    omega
  · -- 0 ≤ x: the maximum with 0 is x
    rw [if_neg h1]
    rw [BitVec.slt_iff_toInt_lt, h0] at h1
    by_cases h2 : (99999#32 : BitVec 32).slt x = true
    · -- 99999 < x: both sides are 99999
      rw [if_pos h2, h9n]
      rw [BitVec.slt_iff_toInt_lt, h9] at h2
      omega
    · -- 0 ≤ x ≤ 99999: both sides are x, whose signed and unsigned readings agree
      rw [if_neg h2]
      rw [BitVec.slt_iff_toInt_lt, h9] at h2
      split at hx <;> omega

end Cert.PreFacts

end
-- ==== Proof.KFrameClaim.lean ====
/-
  The frame of `Kernel`.

  The body's assumed side condition holds on every input: the table's word is the token id clipped between 0 and 99999, so the row it
  names lies inside the embedding table of 100000 rows. The reshape after the region writes only the result, and nothing from the region's
  entry on writes an argument: the two weight matrices are input windows' arrays, which the run leaves at their region-entry contents, and
  the other five arguments bypass the region.
-/
import proofs.«401761_j53102975648364_3_alg».proof.Proof.KFrame
import proofs.«401761_j53102975648364_3_alg».proof.Proof.KHost
import proofs.«401761_j53102975648364_3_alg».proof.Proof.PreFacts

set_option maxRecDepth 16384

noncomputable section

namespace Cert.Kernel.Region

open Cert.Kernel Cert.Kernel.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-- The word the body reads from the table is the token id clipped between 0 and 99999. -/
theorem word_eq (c : Dev nD) :
    (rowWord (F := F) (c := c) (tbl m 0) : BitVec 32)
      = IntOp.minsi (99999#32 : BitVec 32) (IntOp.maxsi (0#32 : BitVec 32) ((m ((c : Thread nD τ).loc main_arg0) : S1.Idx → BitVec 32) (ix1 (0 : Fin 1)))) := by
  obtain rfl : c = 0 := Subsingleton.elim _ _
  have hi : (Rect.unit (s := S1) ![0] S1.size inb_S1_S1_0).toLoadRect.idx (Shape.Idx.first (numel1_S1.symm ▸ Nat.one_pos)) = ix1 (0 : Fin 1) := by
    funext a; apply Fin.ext; fin_cases a; rfl
  show (V m 0 main_v0 : S1.Idx → BitVec 32) _ = _
  rw [hi]
  exact V_main_v0 m 0 _

/-- The word, read unsigned, is the row the specification clamps the id to. -/
theorem word_toNat (c : Dev nD) :
    (rowWord (F := F) (c := c) (tbl m 0) : BitVec 32).toNat
      = Cert.Spec.row ((m ((c : Thread nD τ).loc main_arg0) : S1.Idx → BitVec 32) (ix1 (0 : Fin 1))) := by
  rw [word_eq m c, Cert.PreFacts.clip_toNat]

/-- So the row it names lies inside the embedding table: the side condition the body assumes holds. -/
theorem hyp : Hyp (F := F) m := by
  intro c
  have hlt := Cert.Spec.row_lt ((m ((c : Thread nD τ).loc main_arg0) : S1.Idx → BitVec 32) (ix1 (0 : Fin 1)))
  rw [← word_toNat m c] at hlt
  intro a
  fin_cases a
  · show (rowWord (F := F) (c := c) (tbl m 0) : BitVec 32).toNat + 1 ≤ 100000
    omega
  · show 0 + 256 ≤ 256
    omega

/-! ## The arguments after the reshape that follows the region -/

theorem W_main_arg0 (hH : Hyp m) (c : Dev nD) :
    Pipeline.afterTail pcfgs (fun _ => adm m) (dats m hH) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (hH : Hyp m) (c : Dev nD) :
    Pipeline.afterTail pcfgs (fun _ => adm m) (dats m hH) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (hH : Hyp m) (c : Dev nD) :
    Pipeline.afterTail pcfgs (fun _ => adm m) (dats m hH) 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg5 (hH : Hyp m) (c : Dev nD) :
    Pipeline.afterTail pcfgs (fun _ => adm m) (dats m hH) 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (hH : Hyp m) (c : Dev nD) :
    Pipeline.afterTail pcfgs (fun _ => adm m) (dats m hH) 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- THE FRAME: every weakly fair execution of @main terminates, nothing faulting, and the seven arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (by decide : main_arg0 ∈ Pipeline.restRefs sig spec0)).trans (W_main_arg0 m (hyp m) c),
      ((h c).2 main_arg1 (by decide : main_arg1 ∈ Pipeline.restRefs sig spec0)).trans (W_main_arg1 m (hyp m) c),
      ((h c).2 main_arg2 (by decide : main_arg2 ∈ Pipeline.restRefs sig spec0)).trans (W_main_arg2 m (hyp m) c),
      ((h c).1 1).trans (((dats m (hyp m) 0 c).arrAt_in 1 rfl _).trans ((A_eq m (hyp m) c 1).trans (V_main_arg3 m c))),
      ((h c).1 2).trans (((dats m (hyp m) 0 c).arrAt_in 2 rfl _).trans ((A_eq m (hyp m) c 2).trans (V_main_arg4 m c))),
      ((h c).2 main_arg5 (by decide : main_arg5 ∈ Pipeline.restRefs sig spec0)).trans (W_main_arg5 m (hyp m) c),
      ((h c).2 main_arg6 (by decide : main_arg6 ∈ Pipeline.restRefs sig spec0)).trans (W_main_arg6 m (hyp m) c)⟩)
    (run_main m ρ (hyp m))

end Cert.Kernel.Region

end
-- ==== Proof.KIRegion.lean ====
/-
  The pallas_call's surroundings, for the frame of `KernelIdeal`.

  @main is: three stretches of host operations (two constants; the clip of the token id between 0 and 99999, whose result is
  the call's prefetched table, placed in scalar memory; three reshapes), the region, and one more reshape of the region's result.
  The region's six windows are whole-array blocks on a grid of one point, none of their index maps reads the table, so every
  table is admissible. The body copies ONE row of the embedding table, left in HBM, into a scratch buffer by a transfer of its own on
  a semaphore of its own and waits for it inside the point: the region's invariant therefore holds, besides the scratch buffer and the
  generator register, that semaphore at zero and the embedding table whole at its launch contents, and beside it the half share of the
  prefetched table the body reads its row number from.
-/
import proofs.«401761_j53102975648364_3_alg».proof.Proof.Gen.KernelIdeal.Launch
import proofs.«401761_j53102975648364_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The host operations before the region, stretch by stretch, and those after it. -/
abbrev opsBefore : List (List (HloOp τ sig (Elt F))) := [hostOps0, hostOps0_1, hostOps0_2]
abbrev opsAfter : List (List (HloOp τ sig (Elt F))) := [hostOps1]

/-- Core `c`'s buffer contents when the region is entered: the launch contents after the host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, entered at `V`. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The prefetched table and the pipeline at its contents -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- No index map reads the table: any contents are admissible. -/
abbrev adm : (pcfg0 (F := F)).Adm := ⟨tbl m, trivial⟩
abbrev cfgM : Pipeline.Cfg sig Λ₀ := cfg0 (adm m)

/-- The table as the body is handed it: its whole buffer as a memref. -/
abbrev tbM : Memref sig .tc .smem S1 .i32 := Memref.whole main_v0
abbrev htbM : tbM.IsWhole := Memref.isWhole_whole _
abbrev TbBuf (c : Dev nD) {S : Shape} {e : EltTy} (M : Memref sig .tc .smem S e) : Type := Buf (Elt F) (M.view.loc (c : Thread nD τ))
/-- Held at HALF the full share: the body may read it, nothing may store into it. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The word the body reads from the table: its row number. -/
abbrev rowWord {c : Dev nD} (xt : TbBuf (F := F) c tbM) : Elt F .i32 :=
  tbM.view.readAt (Elt F) (Rect.unit (s := S1) ![0] S1.size inb_S1_S1_0).toLoadRect xt (Shape.Idx.first (numel1_S1.symm ▸ Nat.one_pos))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! ## The staging and scratch memrefs, the kernel's own semaphore, the operand it copies itself -/

abbrev VO5 : View sig .tc .vmem S1x256 .f32 := (Memref.whole cc0_stg5_0 : Memref sig .tc .vmem S1x256 .f32).view
abbrev ms0 (t : Fin (cfgM m).N) : Memref sig .tc .vmem S1x256 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S768x256 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S768x256 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x768 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x768 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x256 .f32 := spec0_5.stage ((cfgM m).slots t 5)
abbrev hs5 (t : Fin (cfgM m).N) : (ms5 m t).IsWhole := hstage0_5 (((cfgM m).slots t 5).cast nbuf0_5)
/-- The scratch buffer the row is copied into. -/
abbrev scM : Memref sig .tc .vmem S1x256 .f32 := Memref.whole cc0_scratch0
/-- The embedding table, left in HBM, whole. -/
abbrev hbM : Memref sig .tc .hbm S100000x256 .f32 := Memref.whole main_arg2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore: cell 6 of the pool, no window's. -/
abbrev osem : Fin 1 → SemLoc sig := fun j => (![SemLoc.dma 6] : Fin 1 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0) := by
  rw [Pipeline.ownSems0_eq_of_list c osem [0] (by decide) (by decide)]; rfl
/-- The operand the body moves itself: the embedding table. -/
def H : Finset (Ref sig .tc) := {main_arg2}
theorem H_sub : H ⊆ Pipeline.restRefsP sig pre0 spec0 := by decide
theorem hbmPts_eq (c : Dev nD) :
    (bigSep H (fun b => ((c : Thread nD τ).loc b) ↦{fullShare} V m c b) : sProp 𝕄) = iprop(hbPt c hbM (V m c main_arg2)) := by
  rw [BI.bigSep_eq_bigSepL_of_eq [main_arg2] (by decide) (by decide)]; rfl

/-- The invariant, conjunct by conjunct: the scratch buffer at some contents, the generator register at some state, the
    own semaphore at zero, the embedding table at its region-entry contents. -/
theorem PhiD_eq (c : Dev nD) :
    (Pipeline.ΦD osem spec0 H (V m) c : sProp 𝕄)
      = iprop(iprop((∃ d, owns (c : Thread nD τ) scM fullShare d)) ∗ (∃ r, prngReg c r) ∗ iprop(semVal ((c : Thread nD τ), SemLoc.dma 6) 0) ∗ iprop(hbPt c hbM (V m c main_arg2))) := by
  rw [Pipeline.ΦD_eq, scopedRest0_eq, ownSems0_eq, hbmPts_eq]; simp only [scM, owns_whole]; try rfl

/-! ## The reshape after the region -/

/-- It touches the pipeline's result array and its own result only: not the table, not the embedding table. -/
theorem sfx_but : ∀ ops ∈ ([hostOps1] : List (List (HloOp τ sig (Elt F)))), ∀ op ∈ ops,
    op.bufs ⊆ Pipeline.tailRefsBut sig pre0 spec0 H := by
  intro ops hops op hop
  simp only [List.mem_cons, List.mem_nil_iff, or_false] at hops
  rcases hops with rfl
  · refine Pipeline.sub_tailRefsBut pre0 spec0 H op ((List.forall_iff_forall_mem.mp hostOps1_sub) op hop) ?_ ?_
    · simp only [hostOps1, List.mem_cons, List.mem_nil_iff, or_false] at hop
      rcases hop with rfl
      all_goals intro j; fin_cases j <;> simp only [StableHlo.reshape_bufs, Finset.mem_insert, Finset.mem_singleton, not_or] <;> and_intros <;> exact StableHlo.devRef_ne_of_ne (by decide)
    · simp only [hostOps1, List.mem_cons, List.mem_nil_iff, or_false] at hop
      rcases hop with rfl
      all_goals intro b hb; simp only [H, Finset.mem_insert, Finset.mem_singleton] at hb
      all_goals rcases hb with rfl <;>
        simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

end Cert.KernelIdeal.Region

end
-- ==== Proof.KIRun.lean ====
/-
  The kernel body's run, for the frame of `KernelIdeal`: on whole staging memrefs holding the five input blocks, the output's staging
  buffer and the scratch buffer at anything, the table's half share, the body's own semaphore at zero and the embedding table whole, the body
  runs to its end — the row's transfer issued, the hidden path computed meanwhile, the transfer waited for, the row read back from the
  scratch buffer — and leaves everything as it found it except the output's staging buffer, written with the pieces the run finds, and
  the scratch buffer, at some contents. The side condition the body assumes of the word it reads from the table (the row lies inside the
  embedding table) is a hypothesis here.
-/
import proofs.«401761_j53102975648364_3_alg».proof.Proof.KIRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The pieces the body's store leaves in the output's staging memref, with the proof that the body runs. -/
noncomputable def kernelRun (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) :
    { L : List (View.Piece (Elt F) S1x256 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d) ∗ (∃ d, owns (c : Thread nD τ) arg9 fullShare d) ∗ tbPt c tbM xt
            ∗ semVal ((c : Thread nD τ), SemLoc.dma 6) 0 ∗ hbPt c hbM fh ∗ owes (c : Thread nD τ) 0 W
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d) ∗ tbPt c tbM xt
                ∗ semVal ((c : Thread nD τ), SemLoc.dma 6) 0 ∗ hbPt c hbM fh ∗ (∃ W', owes (c : Thread nD τ) 0 W')) -∗ K ⟨⟩))
          ⊢ wp frame (wpE (defs₀ (F := F)) Variants.none c none) Set.univ
              (cc0__gru_kernel i tbM htbM hbM (Memref.isWhole_whole _) arg3 harg3 arg4 harg4 arg5 harg5 arg6 harg6 arg7 harg7 arg8 harg8 arg9 harg9 cc0_scratch1) K } := by
  refine ⟨?_, fun W K => ?run⟩
  case run =>
    simp only [cc0__gru_kernel_eq_skeleton]; unfold cc0__gru_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, HT, Hq, Hh, HW, Hk⟩
    obtain rfl := harg3.eq_unread hf0
    obtain rfl := harg4.eq_unread hf1
    obtain rfl := harg5.eq_unread hf2
    obtain rfl := harg6.eq_unread hf3
    obtain rfl := harg7.eq_unread hf4
    sl_exec (disch := first | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS]
    · iexists _, _; isplitr; swap; · iexact HS
      ipureintro; rfl
    isplitl [HT]; · iexact HT
    isplitl [Hq]; · iexact Hq
    isplitl [Hh]; · iexact Hh
    iexists _; iexact HW

end Cert.KernelIdeal.Region

end
-- ==== Proof.KIFrame.lean ====
/-
  The frame run of `KernelIdeal`: the proof data of its one pipeline, the body obligation, and the launch.

  After the body at the one grid point each input window's staging buffer still holds its block and the output's holds what the body
  stored. The region's invariant is the same before and after the point: the scratch buffer and the generator register at anything, the
  body's own semaphore at zero, the embedding table at its region-entry contents, and the half share of the prefetched table. The body's
  assumed side condition — the row the table's word names lies inside the embedding table — is a hypothesis of this module (`Hyp`).
-/
import proofs.«401761_j53102975648364_3_alg».proof.Proof.KIRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side condition the body assumes, at the table's word as the region finds it. -/
def Hyp : Prop := ∀ c : Dev nD, k0_chk1 (rowWord (F := F) (c := c) (tbl m 0))

/-- The run's pieces for the output tile its block (one store of the whole block), so they cover it. -/
theorem cover (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) (y : S1x256.Idx) :
    ∃ pc ∈ (kernelRun c i arg3 harg3 arg4 harg4 arg5 harg5 arg6 harg6 arg7 harg7 arg8 harg8 arg9 harg9 x0 x1 x2 x3 x4 xt fh hw).1, y ∈ pc.1.set :=
  View.cover_of_tiledL (kernelRun c i arg3 harg3 arg4 harg4 arg5 harg5 arg6 harg6 arg7 harg7 arg8 harg8 arg9 harg9 x0 x1 x2 x3 x4 xt fh hw).1 S1x256.size (by sl_kernel_rfl) y

/-- What the run leaves in the output's staging buffer: its pieces read back. -/
def outOf (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) : Vec F S1x256 .f32 :=
  VO5.read (Elt F) (VO5.writes (Elt F) VO5.junk (kernelRun c i arg3 harg3 arg4 harg4 arg5 harg5 arg6 harg6 arg7 harg7 arg8 harg8 arg9 harg9 x0 x1 x2 x3 x4 xt fh hw).1)

/-- The output's staging buffer after the body at point `t`. -/
def outAt (hH : Hyp m) (c : Dev nD) (t : Fin (cfgM m).N) : Vec F S1x256 .f32 :=
  outOf c (grid0.coords t) (ms0 m t) (hs0 m t) (ms1 m t) (hs1 m t) (ms2 m t) (hs2 m t) (ms3 m t) (hs3 m t) (ms4 m t) (hs4 m t) (ms5 m t) (hs5 m t)
    scM (Memref.isWhole_whole _) (iblk m c 0 t) (iblk m c 1 t) (iblk m c 2 t) (iblk m c 3 t) (iblk m c 4 t) (tbl m 0) (V m c main_arg2) (hH c)

/-! ## The proof data -/

def dats (hH : Hyp m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m hH c t)
  Φ _ := iprop(Pipeline.ΦD osem spec0 H (V m) c ∗ Pipeline.ΦT pre0 (tbl m) c)
  q _ := fullShare
  owed _ := 0

theorem A_eq (hH : Hyp m) (c : Dev nD) (w : Fin (cfgM m).W) : (dats m hH 0 c).A w = V m c (Pipeline.arrRef spec0 w) := by
  dsimp only [dats]

theorem after0 (hH : Hyp m) (c : Dev nD) (t : Fin (cfgM m).N) : (dats m hH 0 c).after 0 t = iblk m c 0 t := by dsimp only [dats]; try rfl
theorem after1 (hH : Hyp m) (c : Dev nD) (t : Fin (cfgM m).N) : (dats m hH 0 c).after 1 t = iblk m c 1 t := by dsimp only [dats]; try rfl
theorem after2 (hH : Hyp m) (c : Dev nD) (t : Fin (cfgM m).N) : (dats m hH 0 c).after 2 t = iblk m c 2 t := by dsimp only [dats]; try rfl
theorem after3 (hH : Hyp m) (c : Dev nD) (t : Fin (cfgM m).N) : (dats m hH 0 c).after 3 t = iblk m c 3 t := by dsimp only [dats]; try rfl
theorem after4 (hH : Hyp m) (c : Dev nD) (t : Fin (cfgM m).N) : (dats m hH 0 c).after 4 t = iblk m c 4 t := by dsimp only [dats]; try rfl
theorem after5 (hH : Hyp m) (c : Dev nD) (t : Fin (cfgM m).N) : (dats m hH 0 c).after 5 t = (outAt m hH c t) := by dsimp only [dats]; try rfl

/-- Each input's current staging buffer holds its block at the point, fetched there or not. -/
theorem before0 (hH : Hyp m) (c : Dev nD) (t : Fin (cfgM m).N) (d) : (dats m hH 0 c).before 0 t d = iblk m c 0 t :=
  ((dats m hH 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hH : Hyp m) (c : Dev nD) (t : Fin (cfgM m).N) (d) : (dats m hH 0 c).before 1 t d = iblk m c 1 t :=
  ((dats m hH 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hH : Hyp m) (c : Dev nD) (t : Fin (cfgM m).N) (d) : (dats m hH 0 c).before 2 t d = iblk m c 2 t :=
  ((dats m hH 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hH : Hyp m) (c : Dev nD) (t : Fin (cfgM m).N) (d) : (dats m hH 0 c).before 3 t d = iblk m c 3 t :=
  ((dats m hH 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hH : Hyp m) (c : Dev nD) (t : Fin (cfgM m).N) (d) : (dats m hH 0 c).before 4 t d = iblk m c 4 t :=
  ((dats m hH 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- The kernel body at point `t`, on what the pipeline calls it with. -/
abbrev bodyAt (t : Fin (cfgM m).N) : Prog (TpuEff nD τ sig (Elt F) Λ₀ .tc) PUnit :=
  cc0__gru_kernel (grid0.coords t) tbM htbM hbM (Memref.isWhole_whole _) (ms0 m t) (hs0 m t) (ms1 m t) (hs1 m t) (ms2 m t) (hs2 m t)
    (ms3 m t) (hs3 m t) (ms4 m t) (hs4 m t) (ms5 m t) (hs5 m t) scM (Memref.isWhole_whole _) cc0_scratch1

def bodyPre (hH : Hyp m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d))
    ∗ (∃ d, owns (c : Thread nD τ) (ms4 m t) fullShare ((dats m hH 0 c).before 4 t d))
    ∗ (∃ d, owns (c : Thread nD τ) (ms5 m t) fullShare ((dats m hH 0 c).before 5 t d)))

def bodyPost (hH : Hyp m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t)
    ∗ owns (c : Thread nD τ) (ms4 m t) fullShare ((dats m hH 0 c).after 4 t)
    ∗ owns (c : Thread nD τ) (ms5 m t) fullShare ((dats m hH 0 c).after 5 t))

/-- The body at the point: the inputs' memrefs hold their blocks, so the run applies; the invariant hands the body its scratch buffer, the
    register, its semaphore at zero, the embedding table and the table's half share, and takes them back as they were. -/
theorem sound_body (hH : Hyp m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before0, before1, before2, before3, before4]
  rw [show (dats m hH 0 c).Φ t.succ = (dats m hH 0 c).Φ t.castSucc from rfl,
    after0, after1, after2, after3, after4, after5]
  rw [show (dats m hH 0 c).Φ t.castSucc = iprop(Pipeline.ΦD osem spec0 H (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  unfold outAt
  unfold outOf
  iintro ⟨⟨⟨HS, Hg, Hq, Hh⟩, HT⟩, ⟨%W, -, HW⟩, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t) (iblk m c 3 t) (iblk m c 4 t) (tbl m 0) (V m c main_arg2) (hH c)).2 W _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT]; · iexact HT
  isplitl [Hq]; · iexact Hq
  isplitl [Hh]; · iexact Hh
  isplitl [HW]; · iexact HW
  iintro ⟨H0, H1, H2, H3, H4, ⟨%e5, H5⟩, HS, HT, Hq, Hh, ⟨%W', HW'⟩⟩
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _ _ _ _)

theorem body_obligation (hH : Hyp m) (c : Dev nD) : BodyObligation (dats (F := F) m hH 0 c) (defs₀ (F := F)) Variants.none () Set.univ := fun t => by
  rw [bigSep_W0, bigSep_W0]
  exact sound_body m hH c t

/-! ## The run -/

set_option backward.isDefEq.respectTransparency.types false in
/-- Every weakly fair execution of @main terminates, and every final state has each array of the pipeline at what the proof data give
    and every other unscoped buffer at what the reshape after the region leaves. -/
theorem run_main (hH : Hyp m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem defs₀ Variants.none ownSemFacts H H_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps)
    (hmain := hmain m Variants.none) (hA := A_eq m hH) (hpf := V_pre m) (hin := fun _ => .rfl)
    (hout := fun c => by
      show iprop(Pipeline.ΦD osem spec0 H (V m) c ∗ Pipeline.ΦT pre0 (tbl m) c) ⊢ Pipeline.ΦD osem spec0 H (V m) c
      iintro ⟨HD, -⟩; iexact HD)

end Cert.KernelIdeal.Region

end
-- ==== Proof.KIHost.lean ====
/-
  What the region finds in each buffer, for `KernelIdeal`: the host operations before it read back.
-/
import proofs.«401761_j53102975648364_3_alg».proof.Proof.KIRegion
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- No host operation before the region writes an argument: the region finds each at its launch contents. -/
theorem V_main_arg0 (c : Dev nD) : V m c main_arg0 = m ((c : Thread nD τ).loc main_arg0) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg1 (c : Dev nD) : V m c main_arg1 = m ((c : Thread nD τ).loc main_arg1) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg2 (c : Dev nD) : V m c main_arg2 = m ((c : Thread nD τ).loc main_arg2) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg3 (c : Dev nD) : V m c main_arg3 = m ((c : Thread nD τ).loc main_arg3) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg4 (c : Dev nD) : V m c main_arg4 = m ((c : Thread nD τ).loc main_arg4) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg5 (c : Dev nD) : V m c main_arg5 = m ((c : Thread nD τ).loc main_arg5) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
theorem V_main_arg6 (c : Dev nD) : V m c main_arg6 = m ((c : Thread nD τ).loc main_arg6) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results

/-- The hidden state as a row, and the two biases as rows: reshapes of the arguments. -/
theorem V_main_v1 (c : Dev nD) :
    (V m c main_v1 : S1x256.Idx → Elt F .f32) = shapeCast S1x256 (m ((c : Thread nD τ).loc main_arg1)) shapeCasts_S1x1x256_S1x256 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl
theorem V_main_v2 (c : Dev nD) :
    (V m c main_v2 : S1x768.Idx → Elt F .f32) = shapeCast S1x768 (m ((c : Thread nD τ).loc main_arg5)) shapeCasts_S768_S1x768 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl
theorem V_main_v3 (c : Dev nD) :
    (V m c main_v3 : S1x768.Idx → Elt F .f32) = shapeCast S1x768 (m ((c : Thread nD τ).loc main_arg6)) shapeCasts_S768_S1x768 := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl

/-- The prefetched table: the token id clipped between 0 and 99999 (a signed maximum with 0, then a signed minimum with 99999). -/
theorem V_main_v0 (c : Dev nD) (i : S1.Idx) :
    (V m c main_v0 : S1.Idx → BitVec 32) i = IntOp.minsi (99999#32 : BitVec 32) (IntOp.maxsi (0#32 : BitVec 32) ((m ((c : Thread nD τ).loc main_arg0) : S1.Idx → BitVec 32) i)) := by
  -- the operations before the region, in order; each result read at its own buffer and skipped at any other
  dsimp only [V, V0]
  simp only [hostOps0, hostOps0_1, hostOps0_2, List.flatten_cons, List.flatten_nil, List.append_nil, List.cons_append, List.nil_append]
  open StableHlo in after_results
  rfl

end Cert.KernelIdeal.Region

end
-- ==== Proof.KIFrameClaim.lean ====
/-
  The frame of `KernelIdeal`.

  The body's assumed side condition holds on every input: the table's word is the token id clipped between 0 and 99999, so the row it
  names lies inside the embedding table of 100000 rows. The reshape after the region writes only the result, and nothing from the region's
  entry on writes an argument: the two weight matrices are input windows' arrays, which the run leaves at their region-entry contents, and
  the other five arguments bypass the region.
-/
import proofs.«401761_j53102975648364_3_alg».proof.Proof.KIFrame
import proofs.«401761_j53102975648364_3_alg».proof.Proof.KIHost
import proofs.«401761_j53102975648364_3_alg».proof.Proof.PreFacts

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-- The word the body reads from the table is the token id clipped between 0 and 99999. -/
theorem word_eq (c : Dev nD) :
    (rowWord (F := F) (c := c) (tbl m 0) : BitVec 32)
      = IntOp.minsi (99999#32 : BitVec 32) (IntOp.maxsi (0#32 : BitVec 32) ((m ((c : Thread nD τ).loc main_arg0) : S1.Idx → BitVec 32) (ix1 (0 : Fin 1)))) := by
  obtain rfl : c = 0 := Subsingleton.elim _ _
  have hi : (Rect.unit (s := S1) ![0] S1.size inb_S1_S1_0).toLoadRect.idx (Shape.Idx.first (numel1_S1.symm ▸ Nat.one_pos)) = ix1 (0 : Fin 1) := by
    funext a; apply Fin.ext; fin_cases a; rfl
  show (V m 0 main_v0 : S1.Idx → BitVec 32) _ = _
  rw [hi]
  exact V_main_v0 m 0 _

/-- The word, read unsigned, is the row the specification clamps the id to. -/
theorem word_toNat (c : Dev nD) :
    (rowWord (F := F) (c := c) (tbl m 0) : BitVec 32).toNat
      = Cert.Spec.row ((m ((c : Thread nD τ).loc main_arg0) : S1.Idx → BitVec 32) (ix1 (0 : Fin 1))) := by
  rw [word_eq m c, Cert.PreFacts.clip_toNat]

/-- So the row it names lies inside the embedding table: the side condition the body assumes holds. -/
theorem hyp : Hyp (F := F) m := by
  intro c
  have hlt := Cert.Spec.row_lt ((m ((c : Thread nD τ).loc main_arg0) : S1.Idx → BitVec 32) (ix1 (0 : Fin 1)))
  rw [← word_toNat m c] at hlt
  intro a
  fin_cases a
  · show (rowWord (F := F) (c := c) (tbl m 0) : BitVec 32).toNat + 1 ≤ 100000
    omega
  · show 0 + 256 ≤ 256
    omega

/-! ## The arguments after the reshape that follows the region -/

theorem W_main_arg0 (hH : Hyp m) (c : Dev nD) :
    Pipeline.afterTail pcfgs (fun _ => adm m) (dats m hH) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (hH : Hyp m) (c : Dev nD) :
    Pipeline.afterTail pcfgs (fun _ => adm m) (dats m hH) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (hH : Hyp m) (c : Dev nD) :
    Pipeline.afterTail pcfgs (fun _ => adm m) (dats m hH) 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg5 (hH : Hyp m) (c : Dev nD) :
    Pipeline.afterTail pcfgs (fun _ => adm m) (dats m hH) 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (hH : Hyp m) (c : Dev nD) :
    Pipeline.afterTail pcfgs (fun _ => adm m) (dats m hH) 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- THE FRAME: every weakly fair execution of @main terminates, nothing faulting, and the seven arguments end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (by decide : main_arg0 ∈ Pipeline.restRefs sig spec0)).trans (W_main_arg0 m (hyp m) c),
      ((h c).2 main_arg1 (by decide : main_arg1 ∈ Pipeline.restRefs sig spec0)).trans (W_main_arg1 m (hyp m) c),
      ((h c).2 main_arg2 (by decide : main_arg2 ∈ Pipeline.restRefs sig spec0)).trans (W_main_arg2 m (hyp m) c),
      ((h c).1 1).trans (((dats m (hyp m) 0 c).arrAt_in 1 rfl _).trans ((A_eq m (hyp m) c 1).trans (V_main_arg3 m c))),
      ((h c).1 2).trans (((dats m (hyp m) 0 c).arrAt_in 2 rfl _).trans ((A_eq m (hyp m) c 2).trans (V_main_arg4 m c))),
      ((h c).2 main_arg5 (by decide : main_arg5 ∈ Pipeline.restRefs sig spec0)).trans (W_main_arg5 m (hyp m) c),
      ((h c).2 main_arg6 (by decide : main_arg6 ∈ Pipeline.restRefs sig spec0)).trans (W_main_arg6 m (hyp m) c)⟩)
    (run_main m ρ (hyp m))

end Cert.KernelIdeal.Region

end
-- ==== Proof.KIValue.lean ====
/-
  What the body stores, for `KernelIdeal`: the output's staging buffer after the point holds the body's arithmetic of the five input blocks
  and of the embedding table's row that the table's word names — the row the body's own transfer delivered into the scratch buffer and
  the body read back after waiting for it.
-/
import proofs.«401761_j53102975648364_3_alg».proof.Proof.KIFrame
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- A load of the whole shape after ONE delivery of the whole shape reads what was delivered. -/
theorem readCov_whole_unit {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

/-- The embedding table's row the table's word names, as the transfer delivers it into the scratch buffer. -/
def rowOf {c : Dev nD} (xt : TbBuf (F := F) c tbM) (fh : HbBuf (F := F) c hbM) (hw : k0_chk1 (rowWord xt)) : Vec F S1x256 .f32 :=
  (hbM.slice (Rect.unit (s := S100000x256) (k0_off1 (rowWord xt)) S1x256.size (k0_off1_inb _ hw)) (fun _ => rfl)).view.read (Elt F) fh

/-- The one piece the run found is the body's arithmetic of the input blocks and that row. -/
theorem outOf_eq (c : Dev nD) (i : grid0.Coords)
    (arg3 : Memref sig .tc .vmem S1x256 .f32) (harg3 : arg3.IsWhole) (arg4 : Memref sig .tc .vmem S768x256 .f32) (harg4 : arg4.IsWhole)
    (arg5 : Memref sig .tc .vmem S768x256 .f32) (harg5 : arg5.IsWhole) (arg6 : Memref sig .tc .vmem S1x768 .f32) (harg6 : arg6.IsWhole)
    (arg7 : Memref sig .tc .vmem S1x768 .f32) (harg7 : arg7.IsWhole) (arg8 : Memref sig .tc .vmem S1x256 .f32) (harg8 : arg8.IsWhole)
    (arg9 : Memref sig .tc .vmem S1x256 .f32) (harg9 : arg9.IsWhole)
    (x0 : Vec F S1x256 .f32) (x1 : Vec F S768x256 .f32) (x2 : Vec F S768x256 .f32) (x3 : Vec F S1x768 .f32) (x4 : Vec F S1x768 .f32)
    (xt : TbBuf (F := F) c tbM) (fh : HbBuf (F := F) c hbM) (hw : k0_chk1 (rowWord xt)) :
    outOf c i arg3 harg3 arg4 harg4 arg5 harg5 arg6 harg6 arg7 harg7 arg8 harg8 arg9 harg9 x0 x1 x2 x3 x4 xt fh hw
      = k0_pay1 x0 x2 x4 (rowOf xt fh hw) x1 x3 := by
  unfold outOf
  rw [View.read_writes_eq_canon _ _ _ (cover c i arg3 harg3 arg4 harg4 arg5 harg5 arg6 harg6 arg7 harg7 arg8 harg8 arg9 harg9 x0 x1 x2 x3 x4 xt fh hw)]
  unfold kernelRun
  dsimp only
  sl_unfold_words
  rw [View.canon_unit_zero hz]
  simp only [View.readAt_eq_ld, harg3.read_unread, harg4.read_unread, harg5.read_unread, harg6.read_unread, harg7.read_unread,
    View.ld_unit_zero (S := S1x256) hz, View.ld_unit_zero (S := S768x256) hz, View.ld_unit_zero (S := S1x768) hz]
  refine congrArg (fun r => k0_pay1 x0 x2 x4 r x1 x3) ?_
  refine (readCov_whole_unit (S := S1x256) arg9.view hz inb_S1x256_S1x256_0_0 _).trans ?_
  rfl

variable (m : (ℓ : Loc nD τ sig) → Buf (Elt F) ℓ)

/-- After the point the output's staging buffer holds the body's arithmetic of the five input blocks and the named row of the embedding
    table as the region finds it. -/
theorem outAt_eq (hH : Hyp m) (c : Dev nD) (t : Fin (cfgM m).N) :
    outAt m hH c t = k0_pay1 (iblk m c 0 t) (iblk m c 2 t) (iblk m c 4 t) (rowOf (tbl m 0) (V m c main_arg2) (hH c)) (iblk m c 1 t) (iblk m c 3 t) := by
  unfold outAt
  exact outOf_eq c _ _ _ _ _ _ _ _ _ _ _ _ _ _ _ _ _ _ _ _ _ _ _

/-- The delivered row at column `k` is the table's entry at the named row and column `k`. -/
theorem rowOf_apply {c : Dev nD} (xt : TbBuf (F := F) c tbM) (fh : HbBuf (F := F) c hbM) (hw : k0_chk1 (rowWord xt))
    (hr : (rowWord xt : BitVec 32).toNat < 100000) (k : Fin 256) :
    rowOf xt fh hw (ValueIdx.ix2 (0 : Fin 1) k)
      = (fh : S100000x256.Idx → Elt F .f32) (ValueIdx.ix2 (⟨(rowWord xt : BitVec 32).toNat, hr⟩ : Fin 100000) k) := by
  unfold rowOf
  show (fh : S100000x256.Idx → Elt F .f32) _ = _
  refine congrArg (fh : S100000x256.Idx → Elt F .f32) (funext fun a => Fin.ext ?_)
  match a with
  | ⟨0, _⟩ => show (rowWord xt : BitVec 32).toNat + 1 * 0 = (rowWord xt : BitVec 32).toNat; omega
  | ⟨1, _⟩ => show 0 + 1 * k.val = k.val; omega

end Cert.KernelIdeal.Region

end
-- ==== Proof.KIBlocks.lean ====
/-
  Blocks and arrays, for `KernelIdeal`: on the grid of one point every window's block is its whole array.
-/
import proofs.«401761_j53102975648364_3_alg».proof.Proof.KIFrame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

/-! ## The block indices

Every window's index map is the constant `(0, 0)`, whatever the prefetched table holds: the block at any point starts at the
array's origin. -/

theorem blockIndex0 (a : (pcfg0 (F := F)).Adm) (t : Fin (cfg0 a).N) : ((cfg0 a).win 0).index t = ![0, 0] := rfl
theorem blockIndex1 (a : (pcfg0 (F := F)).Adm) (t : Fin (cfg0 a).N) : ((cfg0 a).win 1).index t = ![0, 0] := rfl
theorem blockIndex2 (a : (pcfg0 (F := F)).Adm) (t : Fin (cfg0 a).N) : ((cfg0 a).win 2).index t = ![0, 0] := rfl
theorem blockIndex3 (a : (pcfg0 (F := F)).Adm) (t : Fin (cfg0 a).N) : ((cfg0 a).win 3).index t = ![0, 0] := rfl
theorem blockIndex4 (a : (pcfg0 (F := F)).Adm) (t : Fin (cfg0 a).N) : ((cfg0 a).win 4).index t = ![0, 0] := rfl
theorem blockIndex5 (a : (pcfg0 (F := F)).Adm) (t : Fin (cfg0 a).N) : ((cfg0 a).win 5).index t = ![0, 0] := rfl

/-! ## The input blocks

A block's element `y` sits in the array, on each axis, at block index × block size + 1 × its own coordinate; with the block index
zero that is `y` itself. -/

/-- Each input window's block at the point is its array as the region finds it: the hidden state's row, the two weight matrices, the
    two bias rows. -/
theorem iblk0_apply (c : Dev nD) (t : Fin (cfgM m).N) (y : S1x256.Idx) :
    (iblk m c 0 t : S1x256.Idx → Elt F .f32) y = (V m c main_v1 : S1x256.Idx → Elt F .f32) y := by
  unfold iblk
  show V m c main_v1 ((((cfgM m).win 0).blk t).view.emb y) = V m c main_v1 y
  refine congrArg _ (funext fun a => Fin.ext ?_)
  have e0 : ((cfgM m).win 0).index t (0 : Fin 2) = 0 := congrFun (blockIndex0 (adm m) t) (0 : Fin 2)
  have e1 : ((cfgM m).win 0).index t (1 : Fin 2) = 0 := congrFun (blockIndex0 (adm m) t) (1 : Fin 2)
  match a with
  | ⟨0, _⟩ => show ((cfgM m).win 0).index t (0 : Fin 2) * 1 + 1 * (y 0).val = (y 0).val; omega
  | ⟨1, _⟩ => show ((cfgM m).win 0).index t (1 : Fin 2) * 256 + 1 * (y 1).val = (y 1).val; omega
theorem iblk1_apply (c : Dev nD) (t : Fin (cfgM m).N) (y : S768x256.Idx) :
    (iblk m c 1 t : S768x256.Idx → Elt F .f32) y = (V m c main_arg3 : S768x256.Idx → Elt F .f32) y := by
  unfold iblk
  show V m c main_arg3 ((((cfgM m).win 1).blk t).view.emb y) = V m c main_arg3 y
  refine congrArg _ (funext fun a => Fin.ext ?_)
  have e0 : ((cfgM m).win 1).index t (0 : Fin 2) = 0 := congrFun (blockIndex1 (adm m) t) (0 : Fin 2)
  have e1 : ((cfgM m).win 1).index t (1 : Fin 2) = 0 := congrFun (blockIndex1 (adm m) t) (1 : Fin 2)
  match a with
  | ⟨0, _⟩ => show ((cfgM m).win 1).index t (0 : Fin 2) * 768 + 1 * (y 0).val = (y 0).val; omega
  | ⟨1, _⟩ => show ((cfgM m).win 1).index t (1 : Fin 2) * 256 + 1 * (y 1).val = (y 1).val; omega
theorem iblk2_apply (c : Dev nD) (t : Fin (cfgM m).N) (y : S768x256.Idx) :
    (iblk m c 2 t : S768x256.Idx → Elt F .f32) y = (V m c main_arg4 : S768x256.Idx → Elt F .f32) y := by
  unfold iblk
  show V m c main_arg4 ((((cfgM m).win 2).blk t).view.emb y) = V m c main_arg4 y
  refine congrArg _ (funext fun a => Fin.ext ?_)
  have e0 : ((cfgM m).win 2).index t (0 : Fin 2) = 0 := congrFun (blockIndex2 (adm m) t) (0 : Fin 2)
  have e1 : ((cfgM m).win 2).index t (1 : Fin 2) = 0 := congrFun (blockIndex2 (adm m) t) (1 : Fin 2)
  match a with
  | ⟨0, _⟩ => show ((cfgM m).win 2).index t (0 : Fin 2) * 768 + 1 * (y 0).val = (y 0).val; omega
  | ⟨1, _⟩ => show ((cfgM m).win 2).index t (1 : Fin 2) * 256 + 1 * (y 1).val = (y 1).val; omega
theorem iblk3_apply (c : Dev nD) (t : Fin (cfgM m).N) (y : S1x768.Idx) :
    (iblk m c 3 t : S1x768.Idx → Elt F .f32) y = (V m c main_v2 : S1x768.Idx → Elt F .f32) y := by
  unfold iblk
  show V m c main_v2 ((((cfgM m).win 3).blk t).view.emb y) = V m c main_v2 y
  refine congrArg _ (funext fun a => Fin.ext ?_)
  have e0 : ((cfgM m).win 3).index t (0 : Fin 2) = 0 := congrFun (blockIndex3 (adm m) t) (0 : Fin 2)
  have e1 : ((cfgM m).win 3).index t (1 : Fin 2) = 0 := congrFun (blockIndex3 (adm m) t) (1 : Fin 2)
  match a with
  | ⟨0, _⟩ => show ((cfgM m).win 3).index t (0 : Fin 2) * 1 + 1 * (y 0).val = (y 0).val; omega
  | ⟨1, _⟩ => show ((cfgM m).win 3).index t (1 : Fin 2) * 768 + 1 * (y 1).val = (y 1).val; omega
theorem iblk4_apply (c : Dev nD) (t : Fin (cfgM m).N) (y : S1x768.Idx) :
    (iblk m c 4 t : S1x768.Idx → Elt F .f32) y = (V m c main_v3 : S1x768.Idx → Elt F .f32) y := by
  unfold iblk
  show V m c main_v3 ((((cfgM m).win 4).blk t).view.emb y) = V m c main_v3 y
  refine congrArg _ (funext fun a => Fin.ext ?_)
  have e0 : ((cfgM m).win 4).index t (0 : Fin 2) = 0 := congrFun (blockIndex4 (adm m) t) (0 : Fin 2)
  have e1 : ((cfgM m).win 4).index t (1 : Fin 2) = 0 := congrFun (blockIndex4 (adm m) t) (1 : Fin 2)
  match a with
  | ⟨0, _⟩ => show ((cfgM m).win 4).index t (0 : Fin 2) * 1 + 1 * (y 0).val = (y 0).val; omega
  | ⟨1, _⟩ => show ((cfgM m).win 4).index t (1 : Fin 2) * 768 + 1 * (y 1).val = (y 1).val; omega

/-! ## The output -/

/-- The output is written back at every point of the grid (the one point is also the last). -/
theorem outFlushes (a : (pcfg0 (F := F)).Adm) : ∀ t : Fin (cfg0 a).N, ((cfg0 a).win 5).flush t = true :=
  (by decide +kernel : ∀ t : Fin grid0.N, Pipeline.Window.flushOf grid0 true cc0_transform_6 t = true)

/-- The output block's element `y` sits in the output's array at `y`. -/
theorem outBlock_emb (t : Fin (cfgM m).N) (y : S1x256.Idx) : (((cfgM m).win 5).blk t).view.emb y = y := by
  refine funext fun a => Fin.ext ?_
  have e0 : ((cfgM m).win 5).index t (0 : Fin 2) = 0 := congrFun (blockIndex5 (adm m) t) (0 : Fin 2)
  have e1 : ((cfgM m).win 5).index t (1 : Fin 2) = 0 := congrFun (blockIndex5 (adm m) t) (1 : Fin 2)
  match a with
  | ⟨0, _⟩ => show ((cfgM m).win 5).index t (0 : Fin 2) * 1 + 1 * (y 0).val = (y 0).val; omega
  | ⟨1, _⟩ => show ((cfgM m).win 5).index t (1 : Fin 2) * 256 + 1 * (y 1).val = (y 1).val; omega

/-- The output's array after the run is what the body left in the output's staging buffer at the one point: if that is `G` at every
    point, the array ends holding `G`. -/
theorem final5 (hH : Hyp m) (c : Dev nD) (G : S1x256.Idx → Elt F .f32) (hG : ∀ t, outAt m hH c t = G) :
    ((dats m hH 0 c).arrAt 5 (cfgM m).N : S1x256.Idx → Elt F .f32) = G := by
  refine (dats m hH 0 c).arrAt_eq_of_cover 5 G (fun t _ => ?_) (fun i => ?_)
  · -- what point `t` writes back is the staging buffer's contents, uncut, and `G` read through the block is `G`
    show ((cfgM m).win 5).cut (grid0.coords t) ((dats m hH 0 c).after 5 t) = _
    rw [after5, hG t]
    funext j
    show G j = G ((((cfgM m).win 5).blk t).view.emb j)
    exact congrArg G (outBlock_emb m t j).symm
  · -- every index of the array is the one point's block's element of the same coordinates
    refine ⟨t0_0, outFlushes (adm m) t0_0, ?_⟩
    have h := (((cfgM m).win 5).blk t0_0).view.emb_mem_set (i : S1x256.Idx)
    rw [outBlock_emb m t0_0 i] at h
    exact h

end Cert.KernelIdeal.Region

end
-- ==== Proof.PayGru.lean ====
/-
  The kernel body's arithmetic, read at an index, is the specification's new hidden state.

  Each of the body's two products contracts axis 1 of a 1 × 256 vector with axis 1 of a 768 × 256 matrix into the zero
  accumulator, so its entry `n` is the sum over `k` of the vector's entry `k` times the matrix's entry `(n, k)`; with
  the bias added that is the specification's gate pre-activation `n`. The narrowing to bf16 and the cast of a shape to
  itself do nothing to an extended real. A slice of the 768 pre-activations from offset `o` reads entry `o + j`, which
  for `o` = 0, 256, 512 is unit `j` of the reset, update and candidate block; the word 0x3F800000 is 1. What is left is
  the specification's own expression, factor by factor and summand by summand in the same order.
-/
import proofs.«401761_j53102975648364_3_alg».proof.Proof.Gen.KernelIdeal.Skeleton
import proofs.«401761_j53102975648364_3_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.PayValue

open Cert.KernelIdeal Cert.KernelIdeal.Gen Idealize.ShloMosaic Idealize.ShloMosaic.ValueIdx

/-! ## The contraction's operand indices, axis by axis

At output index `i` and contraction position `q` the vector is read at `(i 0, q)` and the matrix at `(i 1, q)`. -/

theorem lhs_0 (i : S1x768.Idx) (q : dot_S1x256_S768x256_S1x768_1_1_0_0_n_n.contr.Idx) :
    (dot_S1x256_S768x256_S1x768_1_1_0_0_n_n.lhsIdx i q 0).val = (i 0).val := by
  unfold DotDims.lhsIdx
  rw [dif_neg (show ¬(0 : Fin S1x256.rank) ∈ dot_S1x256_S768x256_S1x768_1_1_0_0_n_n.lhsBatch by decide), dif_pos (show (0 : Fin S1x256.rank) ∈ dot_S1x256_S768x256_S1x768_1_1_0_0_n_n.lhsNonContracting by decide)]
  rfl
theorem lhs_1 (i : S1x768.Idx) (q : dot_S1x256_S768x256_S1x768_1_1_0_0_n_n.contr.Idx) :
    (dot_S1x256_S768x256_S1x768_1_1_0_0_n_n.lhsIdx i q 1).val = (q ⟨0, by decide⟩).val :=
  dot_S1x256_S768x256_S1x768_1_1_0_0_n_n.lhsIdx_val_of_single rfl i q
theorem rhs_0 (i : S1x768.Idx) (q : dot_S1x256_S768x256_S1x768_1_1_0_0_n_n.contr.Idx) :
    (dot_S1x256_S768x256_S1x768_1_1_0_0_n_n.rhsIdx i q 0).val = (i 1).val := by
  unfold DotDims.rhsIdx
  rw [dif_neg (show ¬(0 : Fin S768x256.rank) ∈ dot_S1x256_S768x256_S1x768_1_1_0_0_n_n.rhsBatch by decide), dif_pos (show (0 : Fin S768x256.rank) ∈ dot_S1x256_S768x256_S1x768_1_1_0_0_n_n.rhsNonContracting by decide)]
  rfl
theorem rhs_1 (i : S1x768.Idx) (q : dot_S1x256_S768x256_S1x768_1_1_0_0_n_n.contr.Idx) :
    (dot_S1x256_S768x256_S1x768_1_1_0_0_n_n.rhsIdx i q 1).val = (q ⟨0, by decide⟩).val :=
  dot_S1x256_S768x256_S1x768_1_1_0_0_n_n.rhsIdx_val_of_single rfl i q

/-! ## One product, and one gate pre-activation -/

/-- A product into the zero accumulator, read at output `n`, is the vector against row `n` of the matrix: the sum over
    the one contracted axis, re-indexed by its coordinate `k`. -/
theorem matmul_row (x : FVec Ideal S1x256 .bf16) (w : FVec Ideal S768x256 .bf16) (n : Fin 768) :
    matmul dot_S1x256_S768x256_S1x768_1_1_0_0_n_n none x w (constant (F := Ideal) S1x768 .f32 0x00000000#32) (ix2 (0 : Fin 1) n)
      = ∑ k : Fin 256, x (ix2 (0 : Fin 1) k) * w (ix2 n k) := by
  unfold matmul
  rw [Ideal.matmul_constant_zero_apply, ← Equiv.sum_comp (ValueIdx.contrEquiv1 dot_S1x256_S768x256_S1x768_1_1_0_0_n_n 256 rfl rfl).symm]
  refine Finset.sum_congr rfl fun k _ => ?_
  have hk := ValueIdx.contrEquiv1_symm_val dot_S1x256_S768x256_S1x768_1_1_0_0_n_n 256 rfl rfl k
  have el : dot_S1x256_S768x256_S1x768_1_1_0_0_n_n.lhsIdx (ix2 (0 : Fin 1) n) ((ValueIdx.contrEquiv1 dot_S1x256_S768x256_S1x768_1_1_0_0_n_n 256 rfl rfl).symm k) = ix2 (0 : Fin 1) k := funext fun a => Fin.ext (by
    match a with
    | ⟨0, _⟩ => exact lhs_0 _ _
    | ⟨1, _⟩ => exact (lhs_1 _ _).trans hk)
  have er : dot_S1x256_S768x256_S1x768_1_1_0_0_n_n.rhsIdx (ix2 (0 : Fin 1) n) ((ValueIdx.contrEquiv1 dot_S1x256_S768x256_S1x768_1_1_0_0_n_n 256 rfl rfl).symm k) = ix2 n k := funext fun a => Fin.ext (by
    match a with
    | ⟨0, _⟩ => exact rhs_0 _ _
    | ⟨1, _⟩ => exact (rhs_1 _ _).trans hk)
  rw [el, er]

/-- The word 0x3F800000 denotes 1. -/
theorem one_word : Ideal.ofBits .f32 0x3F800000#32 = 1 := IdealRules.sign_bit.ideal_onePat .f32

/-- A logistic and a hyperbolic tangent of a vector, read at an index, are those of the entry. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- A product into the zero accumulator plus a bias, read at `n`, is the specification's gate pre-activation `n`: the
    narrowing of the operands is the identity on extended reals, and so is the bias's cast to its own shape. -/
theorem gate_read (x : Vec Ideal S1x256 .f32) (w : Vec Ideal S768x256 .f32) (b : Vec Ideal S1x768 .f32) (n : Fin 768) :
    addf (matmul dot_S1x256_S768x256_S1x768_1_1_0_0_n_n none (truncf .bf16 x bitsLt_bf16_f32) (truncf .bf16 w bitsLt_bf16_f32)
          (constant (F := Ideal) S1x768 .f32 0x00000000#32))
        (shapeCast S1x768 b shapeCasts_S1x768_S1x768) (ix2 (0 : Fin 1) n)
      = Cert.Spec.gate (fun k => x (ix2 (0 : Fin 1) k)) (fun n k => w (ix2 n k)) (fun n => b (ix2 (0 : Fin 1) n)) n := by
  rw [addf_apply, matmul_row, shapeCast_self]
  rfl

/-! ## The stored value -/

/-- The body's one stored value at unit `j`, as a function of the six blocks it loads — the hidden state `hb`, the
    hidden-path weights `whh` and bias `bhh`, the table's row `xr`, the input-path weights `wih` and bias `bih` —, is
    the specification's new state at `j`. -/
theorem pay_gru (hb : Vec Ideal S1x256 .f32) (whh : Vec Ideal S768x256 .f32) (bhh : Vec Ideal S1x768 .f32)
    (xr : Vec Ideal S1x256 .f32) (wih : Vec Ideal S768x256 .f32) (bih : Vec Ideal S1x768 .f32) (j : Fin 256) :
    k0_pay1 (F := Ideal) hb whh bhh xr wih bih (ix2 (0 : Fin 1) j)
      = Cert.Spec.gru (fun k => xr (ix2 (0 : Fin 1) k)) (fun k => hb (ix2 (0 : Fin 1) k))
          (fun n k => wih (ix2 n k)) (fun n k => whh (ix2 n k)) (fun n => bih (ix2 (0 : Fin 1) n)) (fun n => bhh (ix2 (0 : Fin 1) n)) j := by
  unfold k0_pay1
  -- the hidden state's cast to its own shape is the hidden state
  simp only [shapeCast_self hb]
  -- the pointwise operations, entry by entry, down to the six slices
  simp only [addf_apply, mulf_apply, subf_apply, broadcast_apply, logistic_at, tanh_at]
  -- a slice from offset `o` reads pre-activation `o + j`; each of the six is a gate of the specification
  simp only [slice2_axis1_eq, gate_read]
  -- the constant is 1, and `0 + j` is `j`: the reset block's unit
  rw [Ideal.ofBits_def, one_word]
  simp only [Nat.zero_add]
  rfl

end Cert.KernelIdeal.PayValue

end
-- ==== Proof.SpecOut.lean ====
/-
  The specification at the seven argument arrays: the new hidden state, as an array of shape [1, 1, 256], of the token id, the hidden
  state, the embedding table, the two weight matrices and the two biases.
-/
import proofs.«401761_j53102975648364_3_alg».proof.Proof.Spec

noncomputable section

namespace Cert.Spec

open Idealize.ShloMosaic Idealize.ShloMosaic.ValueIdx

/-- Entry `(0, 0, j)` is unit `j` of the step: the embedding table's row at the clamped id against the input-path weights, the hidden
    state against the hidden-path weights. -/
def specOut (a0 : (⟨1, ![1]⟩ : Shape).Idx → BitVec 32) (a1 : (⟨3, ![1, 1, 256]⟩ : Shape).Idx → EReal)
    (a2 : (⟨2, ![100000, 256]⟩ : Shape).Idx → EReal) (a3 a4 : (⟨2, ![768, 256]⟩ : Shape).Idx → EReal)
    (a5 a6 : (⟨1, ![768]⟩ : Shape).Idx → EReal) : (⟨3, ![1, 1, 256]⟩ : Shape).Idx → EReal := fun i =>
  gru (fun k => a2 (ix2 (rowFin (a0 (ix1 (0 : Fin 1)))) k)) (fun k => a1 (ix3 (0 : Fin 1) (0 : Fin 1) k))
    (fun n k => a3 (ix2 n k)) (fun n k => a4 (ix2 n k)) (fun n => a5 (ix1 n)) (fun n => a6 (ix1 n)) ⟨(i 2).val, (i 2).isLt⟩

end Cert.Spec

end
-- ==== Proof.KIResult.lean ====
/-
  The result of `KernelIdeal` at the ideal instance, as the specification of its arguments.

  The output array after the run holds the body's arithmetic of the arrays the windows stage — the hidden state as a row, the two weight
  matrices, the two biases as rows — and of the embedding table's row at the table's word, which is the clipped token id; the reshape
  after the region puts a unit axis in front. Read at `(0, 0, j)` this is the specification's unit `j`.
-/
import proofs.«401761_j53102975648364_3_alg».proof.Proof.KIFrameClaim
import proofs.«401761_j53102975648364_3_alg».proof.Proof.KIValue
import proofs.«401761_j53102975648364_3_alg».proof.Proof.KIBlocks
import proofs.«401761_j53102975648364_3_alg».proof.Proof.PayGru
import proofs.«401761_j53102975648364_3_alg».proof.Proof.SpecOut
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The region's output array after the run, as a function on its literal index type. -/
def outArr (c : Dev nD) : S1x256.Idx → EReal := (dats m (hyp m) 0 c).arrAt 5 (cfgM m).N

/-- It holds the body's arithmetic of the arrays the windows stage and of the named row of the embedding table. -/
theorem final (c : Dev nD) :
    outArr m c
      = k0_pay1 (F := Ideal) (V m c main_v1) (V m c main_arg4) (V m c main_v3) (rowOf (tbl m 0) (V m c main_arg2) (hyp m c))
          (V m c main_arg3) (V m c main_v2) :=
  final5 m (hyp m) c _ (fun t => by
    have e0 : (iblk m c 0 t : S1x256.Idx → EReal) = V m c main_v1 := funext (iblk0_apply m c t)
    have e1 : (iblk m c 1 t : S768x256.Idx → EReal) = V m c main_arg3 := funext (iblk1_apply m c t)
    have e2 : (iblk m c 2 t : S768x256.Idx → EReal) = V m c main_arg4 := funext (iblk2_apply m c t)
    have e3 : (iblk m c 3 t : S1x768.Idx → EReal) = V m c main_v2 := funext (iblk3_apply m c t)
    have e4 : (iblk m c 4 t : S1x768.Idx → EReal) = V m c main_v3 := funext (iblk4_apply m c t)
    rw [outAt_eq, e0, e1, e2, e3, e4])

/-- The result buffer after the reshape that follows the region: the output array with a unit axis put in front. -/
theorem W_main_v5 (c : Dev nD) :
    (Pipeline.afterTail pcfgs (fun _ => adm m) (dats m (hyp m)) 0 (V0 m) [hostOps1] c main_v5 : S1x1x256.Idx → EReal)
      = shapeCast S1x1x256 (outArr m c) shapeCasts_S1x256_S1x1x256 := by
  unfold Pipeline.afterTail
  simp only [hostOps1, List.flatten_cons, List.flatten_nil, List.append_nil]
  open StableHlo in after_results
  funext i
  have e : (Pipeline.withArrays (Pipeline.pin pcfgs (fun _ => adm m) 0).spec c (V0 m c)
      (fun w => (dats m (hyp m) 0 c).arrAt w (Pipeline.pin pcfgs (fun _ => adm m) 0).N) (Proc.devRef .tc main_v4) : S1x256.Idx → EReal)
      = outArr m c :=
    Pipeline.withArrays_arr (Pipeline.pin pcfgs (fun _ => adm m) 0).spec (launch0 (F := Ideal)).win.arr_inj c (V0 m c) _ 5
  exact congrArg (fun X : S1x256.Idx → EReal => shapeCast S1x1x256 X shapeCasts_S1x256_S1x1x256 i) e

/-- THE RESULT: the buffer @main returns holds the specification of the seven arguments. -/
theorem result_eq (c : Dev nD) :
    (Pipeline.afterTail pcfgs (fun _ => adm m) (dats m (hyp m)) 0 (V0 m) [hostOps1] c main_v5 : S1x1x256.Idx → EReal)
      = Cert.Spec.specOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨u, v, j, rfl⟩ : ∃ (u : Fin 1) (v : Fin 1) (j : Fin 256), i = ix3 u v j := ⟨i 0, i 1, i 2, eq_ix3 i⟩
  rw [W_main_v5, shapeCast_ab_1ab_apply, final]
  obtain rfl : v = 0 := Subsingleton.elim _ _
  rw [Cert.KernelIdeal.PayValue.pay_gru]
  unfold Cert.Spec.specOut
  -- the named row of the embedding table is the row at the clamped id
  have hrow : (fun k : Fin 256 => rowOf (tbl m 0) (V m c main_arg2) (hyp m c) (ix2 (0 : Fin 1) k))
      = fun k => ((m ((c : Thread nD τ).loc main_arg2)) : S100000x256.Idx → EReal) (ix2 (Cert.Spec.rowFin (((m ((c : Thread nD τ).loc main_arg0)) : S1.Idx → BitVec 32) (ix1 (0 : Fin 1)))) k) := by
    funext k
    have hr : (rowWord (F := Ideal) (c := c) (tbl m 0) : BitVec 32).toNat < 100000 := by rw [word_toNat]; exact Cert.Spec.row_lt _
    rw [rowOf_apply _ _ _ hr k, V_main_arg2]
    exact congrArg _ (congrArg (fun r : Fin 100000 => ix2 r k) (Fin.ext (word_toNat m c)))
  -- the hidden state as a row, and the biases as rows, are reshapes of the arguments
  have hh : (fun k : Fin 256 => (V m c main_v1 : S1x256.Idx → EReal) (ix2 (0 : Fin 1) k))
      = fun k => ((m ((c : Thread nD τ).loc main_arg1)) : S1x1x256.Idx → EReal) (ix3 (0 : Fin 1) (0 : Fin 1) k) := by
    funext k; rw [V_main_v1]; exact shapeCast_1ab_ab_apply _ _ _ _
  have hwi : (fun (n : Fin 768) (k : Fin 256) => (V m c main_arg3 : S768x256.Idx → EReal) (ix2 n k))
      = fun n k => ((m ((c : Thread nD τ).loc main_arg3)) : S768x256.Idx → EReal) (ix2 n k) := by rw [V_main_arg3]
  have hwh : (fun (n : Fin 768) (k : Fin 256) => (V m c main_arg4 : S768x256.Idx → EReal) (ix2 n k))
      = fun n k => ((m ((c : Thread nD τ).loc main_arg4)) : S768x256.Idx → EReal) (ix2 n k) := by rw [V_main_arg4]
  have hbi : (fun n : Fin 768 => (V m c main_v2 : S1x768.Idx → EReal) (ix2 (0 : Fin 1) n))
      = fun n => ((m ((c : Thread nD τ).loc main_arg5)) : S768.Idx → EReal) (ix1 n) := by
    funext n; rw [V_main_v2]; exact shapeCast_a_1a_apply _ _ _ _
  have hbh : (fun n : Fin 768 => (V m c main_v3 : S1x768.Idx → EReal) (ix2 (0 : Fin 1) n))
      = fun n => ((m ((c : Thread nD τ).loc main_arg6)) : S768.Idx → EReal) (ix1 n) := by
    funext n; rw [V_main_v3]; exact shapeCast_a_1a_apply _ _ _ _
  rw [hrow, hh, hwi, hwh, hbi, hbh]

/-- THE RUN, READ: every weakly fair execution of @main terminates with the result at the specification of the arguments and the
    arguments unchanged. -/
theorem run_result : θ_run defs (onTc (τ := τ) (main (F := Ideal))) ⟨m, fun _ => 0, ρ⟩ (fun r => ∀ c : Dev nD,
      r.2.mem ((c.tc : Thread nD τ).loc main_v5) = Cert.Spec.specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v5 (by decide : main_v5 ∈ Pipeline.restRefs sig spec0)).trans (result_eq m c),
      ((h c).2 main_arg0 (by decide : main_arg0 ∈ Pipeline.restRefs sig spec0)).trans (W_main_arg0 m (hyp m) c),
      ((h c).2 main_arg1 (by decide : main_arg1 ∈ Pipeline.restRefs sig spec0)).trans (W_main_arg1 m (hyp m) c),
      ((h c).2 main_arg2 (by decide : main_arg2 ∈ Pipeline.restRefs sig spec0)).trans (W_main_arg2 m (hyp m) c),
      ((h c).1 1).trans (((dats m (hyp m) 0 c).arrAt_in 1 rfl _).trans ((A_eq m (hyp m) c 1).trans (V_main_arg3 m c))),
      ((h c).1 2).trans (((dats m (hyp m) 0 c).arrAt_in 2 rfl _).trans ((A_eq m (hyp m) c 2).trans (V_main_arg4 m c))),
      ((h c).2 main_arg5 (by decide : main_arg5 ∈ Pipeline.restRefs sig spec0)).trans (W_main_arg5 m (hyp m) c),
      ((h c).2 main_arg6 (by decide : main_arg6 ∈ Pipeline.restRefs sig spec0)).trans (W_main_arg6 m (hyp m) c)⟩)
    (run_main m ρ (hyp m))

end Cert.KernelIdeal.Region

end
-- ==== Proof.RefRunH.lean ====
/-
  The reference's run, read back stage by stage: every weakly fair execution of the reference terminates with its result at the last
  stage's value of the launch contents of its seven arguments, the arguments unchanged.
-/
import proofs.«401761_j53102975648364_3_alg».proof.Proof.RefRead

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations, cut into consecutive stretches -/

/-- Operations 0 to 5 of @main. -/
abbrev opsA : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 100000#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem opsA_sub : (opsA : List (HloOp τ sig (Elt F))).Forall fun op => op.bufs ⊆ tcRefs τ sig :=
  ⟨reshape_bufs_sub .., nullary_bufs_sub .., binary_bufs_sub .., nullary_bufs_sub .., binary_bufs_sub .., ternary_bufs_sub ..⟩
theorem opsA_fresh : (opsA : List (HloOp τ sig (Elt F))).Forall fun op => op.fresh = ∅ := by
  simp only [List.Forall]; repeat' constructor

/-- Operations 6 to 13 of @main. -/
abbrev opsB : List (HloOp τ sig (Elt F)) :=
  [ nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 256#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem opsB_sub : (opsB : List (HloOp τ sig (Elt F))).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub ..⟩
theorem opsB_fresh : (opsB : List (HloOp τ sig (Elt F))).Forall fun op => op.fresh = ∅ := by
  simp only [List.Forall]; repeat' constructor

/-- Operations 14 to 14 of @main. -/
abbrev opsC : List (HloOp τ sig (Elt F)) :=
  [ unaryIndexed main_arg2 ![main_v3, main_v6] ⟨S_, .i32⟩ main_v7 ((fun x i => Host.dynamicSlice S1x256 x (fun k => (i k (Shape.Idx.first h_S_)).toInt) sliceFits_S100000x256_S1x256) : (⟨S100000x256, .f32⟩ : BufTy).Contents (Elt F) → (Fin 2 → (⟨S_, .i32⟩ : BufTy).Contents (Elt F)) → (⟨S1x256, .f32⟩ : BufTy).Contents (Elt F)) ]
theorem opsC_sub : (opsC : List (HloOp τ sig (Elt F))).Forall fun op => op.bufs ⊆ tcRefs τ sig :=
  unaryIndexed_bufs_sub ..
theorem opsC_fresh : (opsC : List (HloOp τ sig (Elt F))).Forall fun op => op.fresh = ∅ := by
  simp only [List.Forall]; repeat' constructor

/-- Operations 15 to 21 of @main. -/
abbrev opsD : List (HloOp τ sig (Elt F)) :=
  [ reshape main_v7 main_v8 rfl shapeCasts_S1x256_S256,
    unary main_v8 main_v9 (broadcastInDim S1x256 ![1] bcast_S256_S1x256_1 : (⟨S256, .f32⟩ : BufTy).Contents (Elt F) → (⟨S1x256, .f32⟩ : BufTy).Contents (Elt F)),
    reshape main_arg1 main_v10 rfl shapeCasts_S1x1x256_S1x256,
    unary main_arg3 main_v11 ((transpose S256x768 [1, 0] · transposes_S768x256_S256x768_1_0) : (⟨S768x256, .f32⟩ : BufTy).Contents (Elt F) → (⟨S256x768, .f32⟩ : BufTy).Contents (Elt F)),
    binary main_v9 main_v11 main_v12 ((fun l r => Host.dotGeneral dot_S1x256_S256x768_S1x768_1_0_0_1_n_n none l r) : (⟨S1x256, .f32⟩ : BufTy).Contents (Elt F) → (⟨S256x768, .f32⟩ : BufTy).Contents (Elt F) → (⟨S1x768, .f32⟩ : BufTy).Contents (Elt F)),
    unary main_arg5 main_v13 (broadcastInDim S1x768 ![1] bcast_S768_S1x768_1 : (⟨S768, .f32⟩ : BufTy).Contents (Elt F) → (⟨S1x768, .f32⟩ : BufTy).Contents (Elt F)),
    binary main_v12 main_v13 main_v14 (addf : (⟨S1x768, .f32⟩ : BufTy).Contents (Elt F) → (⟨S1x768, .f32⟩ : BufTy).Contents (Elt F) → (⟨S1x768, .f32⟩ : BufTy).Contents (Elt F)) ]
theorem opsD_sub : (opsD : List (HloOp τ sig (Elt F))).Forall fun op => op.bufs ⊆ tcRefs τ sig :=
  ⟨reshape_bufs_sub .., unary_bufs_sub .., reshape_bufs_sub .., unary_bufs_sub .., binary_bufs_sub .., unary_bufs_sub .., binary_bufs_sub ..⟩
theorem opsD_fresh : (opsD : List (HloOp τ sig (Elt F))).Forall fun op => op.fresh = ∅ := by
  simp only [List.Forall]; repeat' constructor

/-- Operations 22 to 25 of @main. -/
abbrev opsE : List (HloOp τ sig (Elt F)) :=
  [ unary main_arg4 main_v15 ((transpose S256x768 [1, 0] · transposes_S768x256_S256x768_1_0) : (⟨S768x256, .f32⟩ : BufTy).Contents (Elt F) → (⟨S256x768, .f32⟩ : BufTy).Contents (Elt F)),
    binary main_v10 main_v15 main_v16 ((fun l r => Host.dotGeneral dot_S1x256_S256x768_S1x768_1_0_0_1_n_n none l r) : (⟨S1x256, .f32⟩ : BufTy).Contents (Elt F) → (⟨S256x768, .f32⟩ : BufTy).Contents (Elt F) → (⟨S1x768, .f32⟩ : BufTy).Contents (Elt F)),
    unary main_arg6 main_v17 (broadcastInDim S1x768 ![1] bcast_S768_S1x768_1 : (⟨S768, .f32⟩ : BufTy).Contents (Elt F) → (⟨S1x768, .f32⟩ : BufTy).Contents (Elt F)),
    binary main_v16 main_v17 main_v18 (addf : (⟨S1x768, .f32⟩ : BufTy).Contents (Elt F) → (⟨S1x768, .f32⟩ : BufTy).Contents (Elt F) → (⟨S1x768, .f32⟩ : BufTy).Contents (Elt F)) ]
theorem opsE_sub : (opsE : List (HloOp τ sig (Elt F))).Forall fun op => op.bufs ⊆ tcRefs τ sig :=
  ⟨unary_bufs_sub .., binary_bufs_sub .., unary_bufs_sub .., binary_bufs_sub ..⟩
theorem opsE_fresh : (opsE : List (HloOp τ sig (Elt F))).Forall fun op => op.fresh = ∅ := by
  simp only [List.Forall]; repeat' constructor

/-- Operations 26 to 31 of @main. -/
abbrev opsG : List (HloOp τ sig (Elt F)) :=
  [ unary main_v14 main_v19 ((extractStridedSlice S1x256 ![0, 0] · slices_S1x768_S1x256_0_0) : (⟨S1x768, .f32⟩ : BufTy).Contents (Elt F) → (⟨S1x256, .f32⟩ : BufTy).Contents (Elt F)),
    unary main_v14 main_v20 ((extractStridedSlice S1x256 ![0, 256] · slices_S1x768_S1x256_0_256) : (⟨S1x768, .f32⟩ : BufTy).Contents (Elt F) → (⟨S1x256, .f32⟩ : BufTy).Contents (Elt F)),
    unary main_v14 main_v21 ((extractStridedSlice S1x256 ![0, 512] · slices_S1x768_S1x256_0_512) : (⟨S1x768, .f32⟩ : BufTy).Contents (Elt F) → (⟨S1x256, .f32⟩ : BufTy).Contents (Elt F)),
    unary main_v18 main_v22 ((extractStridedSlice S1x256 ![0, 0] · slices_S1x768_S1x256_0_0) : (⟨S1x768, .f32⟩ : BufTy).Contents (Elt F) → (⟨S1x256, .f32⟩ : BufTy).Contents (Elt F)),
    unary main_v18 main_v23 ((extractStridedSlice S1x256 ![0, 256] · slices_S1x768_S1x256_0_256) : (⟨S1x768, .f32⟩ : BufTy).Contents (Elt F) → (⟨S1x256, .f32⟩ : BufTy).Contents (Elt F)),
    unary main_v18 main_v24 ((extractStridedSlice S1x256 ![0, 512] · slices_S1x768_S1x256_0_512) : (⟨S1x768, .f32⟩ : BufTy).Contents (Elt F) → (⟨S1x256, .f32⟩ : BufTy).Contents (Elt F)) ]
theorem opsG_sub : (opsG : List (HloOp τ sig (Elt F))).Forall fun op => op.bufs ⊆ tcRefs τ sig :=
  ⟨unary_bufs_sub .., unary_bufs_sub .., unary_bufs_sub .., unary_bufs_sub .., unary_bufs_sub .., unary_bufs_sub ..⟩
theorem opsG_fresh : (opsG : List (HloOp τ sig (Elt F))).Forall fun op => op.fresh = ∅ := by
  simp only [List.Forall]; repeat' constructor

/-- Operations 32 to 40 of @main. -/
abbrev opsH : List (HloOp τ sig (Elt F)) :=
  [ binary main_v19 main_v22 main_v25 (addf : (⟨S1x256, .f32⟩ : BufTy).Contents (Elt F) → (⟨S1x256, .f32⟩ : BufTy).Contents (Elt F) → (⟨S1x256, .f32⟩ : BufTy).Contents (Elt F)),
    unary main_v25 main_v26 (Host.negf : (⟨S1x256, .f32⟩ : BufTy).Contents (Elt F) → (⟨S1x256, .f32⟩ : BufTy).Contents (Elt F)),
    unary main_v26 main_v27 (Host.exp : (⟨S1x256, .f32⟩ : BufTy).Contents (Elt F) → (⟨S1x256, .f32⟩ : BufTy).Contents (Elt F)),
    nullary main_cst (constant S_ .f32 0x3F800000#32),
    unary main_cst main_v28 (broadcastInDim S1x256 ![] bcast_S_S1x256 : (⟨S_, .f32⟩ : BufTy).Contents (Elt F) → (⟨S1x256, .f32⟩ : BufTy).Contents (Elt F)),
    binary main_v28 main_v27 main_v29 (addf : (⟨S1x256, .f32⟩ : BufTy).Contents (Elt F) → (⟨S1x256, .f32⟩ : BufTy).Contents (Elt F) → (⟨S1x256, .f32⟩ : BufTy).Contents (Elt F)),
    nullary main_cst_6 (constant S_ .f32 0x3F800000#32),
    unary main_cst_6 main_v30 (broadcastInDim S1x256 ![] bcast_S_S1x256 : (⟨S_, .f32⟩ : BufTy).Contents (Elt F) → (⟨S1x256, .f32⟩ : BufTy).Contents (Elt F)),
    binary main_v30 main_v29 main_v31 (Host.divf : (⟨S1x256, .f32⟩ : BufTy).Contents (Elt F) → (⟨S1x256, .f32⟩ : BufTy).Contents (Elt F) → (⟨S1x256, .f32⟩ : BufTy).Contents (Elt F)) ]
theorem opsH_sub : (opsH : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub ..⟩
theorem opsH_fresh : (opsH : List (HloOp τ sig (Elt F))).Forall fun op => op.fresh = ∅ := by
  simp only [List.Forall]; repeat' constructor

/-- Operations 41 to 49 of @main. -/
abbrev opsI : List (HloOp τ sig (Elt F)) :=
  [ binary main_v20 main_v23 main_v32 (addf : (⟨S1x256, .f32⟩ : BufTy).Contents (Elt F) → (⟨S1x256, .f32⟩ : BufTy).Contents (Elt F) → (⟨S1x256, .f32⟩ : BufTy).Contents (Elt F)),
    unary main_v32 main_v33 (Host.negf : (⟨S1x256, .f32⟩ : BufTy).Contents (Elt F) → (⟨S1x256, .f32⟩ : BufTy).Contents (Elt F)),
    unary main_v33 main_v34 (Host.exp : (⟨S1x256, .f32⟩ : BufTy).Contents (Elt F) → (⟨S1x256, .f32⟩ : BufTy).Contents (Elt F)),
    nullary main_cst_7 (constant S_ .f32 0x3F800000#32),
    unary main_cst_7 main_v35 (broadcastInDim S1x256 ![] bcast_S_S1x256 : (⟨S_, .f32⟩ : BufTy).Contents (Elt F) → (⟨S1x256, .f32⟩ : BufTy).Contents (Elt F)),
    binary main_v35 main_v34 main_v36 (addf : (⟨S1x256, .f32⟩ : BufTy).Contents (Elt F) → (⟨S1x256, .f32⟩ : BufTy).Contents (Elt F) → (⟨S1x256, .f32⟩ : BufTy).Contents (Elt F)),
    nullary main_cst_8 (constant S_ .f32 0x3F800000#32),
    unary main_cst_8 main_v37 (broadcastInDim S1x256 ![] bcast_S_S1x256 : (⟨S_, .f32⟩ : BufTy).Contents (Elt F) → (⟨S1x256, .f32⟩ : BufTy).Contents (Elt F)),
    binary main_v37 main_v36 main_v38 (Host.divf : (⟨S1x256, .f32⟩ : BufTy).Contents (Elt F) → (⟨S1x256, .f32⟩ : BufTy).Contents (Elt F) → (⟨S1x256, .f32⟩ : BufTy).Contents (Elt F)) ]
theorem opsI_sub : (opsI : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub ..⟩
theorem opsI_fresh : (opsI : List (HloOp τ sig (Elt F))).Forall fun op => op.fresh = ∅ := by
  simp only [List.Forall]; repeat' constructor

/-- Operations 50 to 59 of @main. -/
abbrev opsJ : List (HloOp τ sig (Elt F)) :=
  [ binary main_v31 main_v24 main_v39 (mulf : (⟨S1x256, .f32⟩ : BufTy).Contents (Elt F) → (⟨S1x256, .f32⟩ : BufTy).Contents (Elt F) → (⟨S1x256, .f32⟩ : BufTy).Contents (Elt F)),
    binary main_v21 main_v39 main_v40 (addf : (⟨S1x256, .f32⟩ : BufTy).Contents (Elt F) → (⟨S1x256, .f32⟩ : BufTy).Contents (Elt F) → (⟨S1x256, .f32⟩ : BufTy).Contents (Elt F)),
    unary main_v40 main_v41 (Host.tanh : (⟨S1x256, .f32⟩ : BufTy).Contents (Elt F) → (⟨S1x256, .f32⟩ : BufTy).Contents (Elt F)),
    nullary main_cst_9 (constant S_ .f32 0x3F800000#32),
    unary main_cst_9 main_v42 (broadcastInDim S1x256 ![] bcast_S_S1x256 : (⟨S_, .f32⟩ : BufTy).Contents (Elt F) → (⟨S1x256, .f32⟩ : BufTy).Contents (Elt F)),
    binary main_v42 main_v38 main_v43 (subf : (⟨S1x256, .f32⟩ : BufTy).Contents (Elt F) → (⟨S1x256, .f32⟩ : BufTy).Contents (Elt F) → (⟨S1x256, .f32⟩ : BufTy).Contents (Elt F)),
    binary main_v43 main_v41 main_v44 (mulf : (⟨S1x256, .f32⟩ : BufTy).Contents (Elt F) → (⟨S1x256, .f32⟩ : BufTy).Contents (Elt F) → (⟨S1x256, .f32⟩ : BufTy).Contents (Elt F)),
    binary main_v38 main_v10 main_v45 (mulf : (⟨S1x256, .f32⟩ : BufTy).Contents (Elt F) → (⟨S1x256, .f32⟩ : BufTy).Contents (Elt F) → (⟨S1x256, .f32⟩ : BufTy).Contents (Elt F)),
    binary main_v44 main_v45 main_v46 (addf : (⟨S1x256, .f32⟩ : BufTy).Contents (Elt F) → (⟨S1x256, .f32⟩ : BufTy).Contents (Elt F) → (⟨S1x256, .f32⟩ : BufTy).Contents (Elt F)),
    unary main_v46 main_v47 (broadcastInDim S1x1x256 ![1, 2] bcast_S1x256_S1x1x256_1_2 : (⟨S1x256, .f32⟩ : BufTy).Contents (Elt F) → (⟨S1x1x256, .f32⟩ : BufTy).Contents (Elt F)) ]
theorem opsJ_sub : (opsJ : List (HloOp τ sig (Elt F))).Forall fun op => op.bufs ⊆ tcRefs τ sig :=
  ⟨binary_bufs_sub .., binary_bufs_sub .., unary_bufs_sub .., nullary_bufs_sub .., unary_bufs_sub .., binary_bufs_sub .., binary_bufs_sub .., binary_bufs_sub .., binary_bufs_sub .., unary_bufs_sub ..⟩
theorem opsJ_fresh : (opsJ : List (HloOp τ sig (Elt F))).Forall fun op => op.fresh = ∅ := by
  simp only [List.Forall]; repeat' constructor

/-- @main's 60 operations, in order: the stretches one after the other. -/
abbrev ops : List (HloOp τ sig (Elt F)) :=
  opsA ++ (opsB ++ (opsC ++ (opsD ++ (opsE ++ (opsG ++ (opsH ++ (opsI ++ (opsJ))))))))

/-! ## Each stretch read back

Over an arbitrary valuation `W` and arbitrary argument contents `x0 … x6`: a stretch takes the stages at the buffers it reads as hypotheses
and gives the stages at the buffers later stretches read. -/

/-- Stretch A (operations 0 to 5): from a valuation holding the named stages at the buffers the stretch reads, the stages it computes and
    the earlier ones later stretches still read. -/
theorem stretchA (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    :
    after opsA W (Proc.devRef .tc main_arg1) = x1
    ∧ after opsA W (Proc.devRef .tc main_arg2) = x2
    ∧ after opsA W (Proc.devRef .tc main_arg3) = x3
    ∧ after opsA W (Proc.devRef .tc main_arg4) = x4
    ∧ after opsA W (Proc.devRef .tc main_arg5) = x5
    ∧ after opsA W (Proc.devRef .tc main_arg6) = x6
    ∧ after opsA W (Proc.devRef .tc main_v3) = ReadP.val_main_v3 (F := F) x0 := by
  refine ⟨?_, ?_, ?_, ?_, ?_, ?_, ?_⟩
  · simp only [opsA]; after_results; exact h_arg1
  · simp only [opsA]; after_results; exact h_arg2
  · simp only [opsA]; after_results; exact h_arg3
  · simp only [opsA]; after_results; exact h_arg4
  · simp only [opsA]; after_results; exact h_arg5
  · simp only [opsA]; after_results; exact h_arg6
  · simp only [opsA]; after_results; rw [h_arg0]; rfl

/-- Stretch B (operations 6 to 13): from a valuation holding the named stages at the buffers the stretch reads, the stages it computes and
    the earlier ones later stretches still read. -/
theorem stretchB (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_v3 : W (Proc.devRef .tc main_v3) = ReadP.val_main_v3 (F := F) x0)
    :
    after opsB W (Proc.devRef .tc main_arg1) = x1
    ∧ after opsB W (Proc.devRef .tc main_arg2) = x2
    ∧ after opsB W (Proc.devRef .tc main_arg3) = x3
    ∧ after opsB W (Proc.devRef .tc main_arg4) = x4
    ∧ after opsB W (Proc.devRef .tc main_arg5) = x5
    ∧ after opsB W (Proc.devRef .tc main_arg6) = x6
    ∧ after opsB W (Proc.devRef .tc main_v3) = ReadP.val_main_v3 (F := F) x0
    ∧ after opsB W (Proc.devRef .tc main_v6) = ReadP.val_main_v6 (F := F) := by
  refine ⟨?_, ?_, ?_, ?_, ?_, ?_, ?_, ?_⟩
  · simp only [opsB]; after_results; exact h_arg1
  · simp only [opsB]; after_results; exact h_arg2
  · simp only [opsB]; after_results; exact h_arg3
  · simp only [opsB]; after_results; exact h_arg4
  · simp only [opsB]; after_results; exact h_arg5
  · simp only [opsB]; after_results; exact h_arg6
  · simp only [opsB]; after_results; exact h_v3
  · simp only [opsB]; after_results; rfl

/-- Stretch C (operations 14 to 14): from a valuation holding the named stages at the buffers the stretch reads, the stages it computes and
    the earlier ones later stretches still read. -/
theorem stretchC (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_v3 : W (Proc.devRef .tc main_v3) = ReadP.val_main_v3 (F := F) x0)
    (h_v6 : W (Proc.devRef .tc main_v6) = ReadP.val_main_v6 (F := F))
    :
    after opsC W (Proc.devRef .tc main_arg1) = x1
    ∧ after opsC W (Proc.devRef .tc main_arg3) = x3
    ∧ after opsC W (Proc.devRef .tc main_arg4) = x4
    ∧ after opsC W (Proc.devRef .tc main_arg5) = x5
    ∧ after opsC W (Proc.devRef .tc main_arg6) = x6
    ∧ after opsC W (Proc.devRef .tc main_v7) = ReadP.val_main_v7 (F := F) x0 x2 := by
  refine ⟨?_, ?_, ?_, ?_, ?_, ?_⟩
  · simp only [opsC]; after_results; exact h_arg1
  · simp only [opsC]; after_results; exact h_arg3
  · simp only [opsC]; after_results; exact h_arg4
  · simp only [opsC]; after_results; exact h_arg5
  · simp only [opsC]; after_results; exact h_arg6
  · -- the dynamic slice: its operand, then its two start indices read one at a time
    simp only [opsC, after_cons, after_nil]
    rw [unaryIndexed_result, h_arg2]
    unfold ReadP.val_main_v7
    -- the two start indices, one at a time: the clamped row, and column 0
    congr 1
    funext k
    fin_cases k
    · simp only [Matrix.cons_val_zero', Matrix.cons_val_succ', Fin.zero_eta, Fin.mk_one, Matrix.cons_val_zero, Matrix.cons_val_one, Matrix.head_cons]
      rw [h_v3]; rfl
    · simp only [Matrix.cons_val_zero', Matrix.cons_val_succ', Fin.zero_eta, Fin.mk_one, Matrix.cons_val_zero, Matrix.cons_val_one, Matrix.head_cons]
      rw [h_v6]; rfl

/-- Stretch D (operations 15 to 21): from a valuation holding the named stages at the buffers the stretch reads, the stages it computes and
    the earlier ones later stretches still read. -/
theorem stretchD (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_arg1 : W (Proc.devRef .tc main_arg1) = x1)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_v7 : W (Proc.devRef .tc main_v7) = ReadP.val_main_v7 (F := F) x0 x2)
    :
    after opsD W (Proc.devRef .tc main_arg4) = x4
    ∧ after opsD W (Proc.devRef .tc main_arg6) = x6
    ∧ after opsD W (Proc.devRef .tc main_v10) = ReadP.val_main_v10 (F := F) x1
    ∧ after opsD W (Proc.devRef .tc main_v14) = ReadP.val_main_v14 (F := F) x0 x2 x3 x5 := by
  refine ⟨?_, ?_, ?_, ?_⟩
  · simp only [opsD]; after_results; exact h_arg4
  · simp only [opsD]; after_results; exact h_arg6
  · simp only [opsD]; after_results; rw [h_arg1]; rfl
  · simp only [opsD]; after_results; rw [h_arg3, h_arg5, h_v7]; rfl

/-- Stretch E (operations 22 to 25): from a valuation holding the named stages at the buffers the stretch reads, the stages it computes and
    the earlier ones later stretches still read. -/
theorem stretchE (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_arg4 : W (Proc.devRef .tc main_arg4) = x4)
    (h_arg6 : W (Proc.devRef .tc main_arg6) = x6)
    (h_v10 : W (Proc.devRef .tc main_v10) = ReadP.val_main_v10 (F := F) x1)
    (h_v14 : W (Proc.devRef .tc main_v14) = ReadP.val_main_v14 (F := F) x0 x2 x3 x5)
    :
    after opsE W (Proc.devRef .tc main_v10) = ReadP.val_main_v10 (F := F) x1
    ∧ after opsE W (Proc.devRef .tc main_v14) = ReadP.val_main_v14 (F := F) x0 x2 x3 x5
    ∧ after opsE W (Proc.devRef .tc main_v18) = ReadP.val_main_v18 (F := F) x1 x4 x6 := by
  refine ⟨?_, ?_, ?_⟩
  · simp only [opsE]; after_results; exact h_v10
  · simp only [opsE]; after_results; exact h_v14
  · simp only [opsE]; after_results; rw [h_arg4, h_arg6, h_v10]; rfl

/-- Stretch G (operations 26 to 31): from a valuation holding the named stages at the buffers the stretch reads, the stages it computes and
    the earlier ones later stretches still read. -/
theorem stretchG (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_v10 : W (Proc.devRef .tc main_v10) = ReadP.val_main_v10 (F := F) x1)
    (h_v14 : W (Proc.devRef .tc main_v14) = ReadP.val_main_v14 (F := F) x0 x2 x3 x5)
    (h_v18 : W (Proc.devRef .tc main_v18) = ReadP.val_main_v18 (F := F) x1 x4 x6)
    :
    after opsG W (Proc.devRef .tc main_v10) = ReadP.val_main_v10 (F := F) x1
    ∧ after opsG W (Proc.devRef .tc main_v19) = ReadP.val_main_v19 (F := F) x0 x2 x3 x5
    ∧ after opsG W (Proc.devRef .tc main_v20) = ReadP.val_main_v20 (F := F) x0 x2 x3 x5
    ∧ after opsG W (Proc.devRef .tc main_v21) = ReadP.val_main_v21 (F := F) x0 x2 x3 x5
    ∧ after opsG W (Proc.devRef .tc main_v22) = ReadP.val_main_v22 (F := F) x1 x4 x6
    ∧ after opsG W (Proc.devRef .tc main_v23) = ReadP.val_main_v23 (F := F) x1 x4 x6
    ∧ after opsG W (Proc.devRef .tc main_v24) = ReadP.val_main_v24 (F := F) x1 x4 x6 := by
  refine ⟨?_, ?_, ?_, ?_, ?_, ?_, ?_⟩
  · simp only [opsG]; after_results; exact h_v10
  · simp only [opsG]; after_results; rw [h_v14]; rfl
  · simp only [opsG]; after_results; rw [h_v14]; rfl
  · simp only [opsG]; after_results; rw [h_v14]; rfl
  · simp only [opsG]; after_results; rw [h_v18]; rfl
  · simp only [opsG]; after_results; rw [h_v18]; rfl
  · simp only [opsG]; after_results; rw [h_v18]; rfl

/-- Stretch H (operations 32 to 40): from a valuation holding the named stages at the buffers the stretch reads, the stages it computes and
    the earlier ones later stretches still read. -/
theorem stretchH (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_v10 : W (Proc.devRef .tc main_v10) = ReadP.val_main_v10 (F := F) x1)
    (h_v19 : W (Proc.devRef .tc main_v19) = ReadP.val_main_v19 (F := F) x0 x2 x3 x5)
    (h_v20 : W (Proc.devRef .tc main_v20) = ReadP.val_main_v20 (F := F) x0 x2 x3 x5)
    (h_v21 : W (Proc.devRef .tc main_v21) = ReadP.val_main_v21 (F := F) x0 x2 x3 x5)
    (h_v22 : W (Proc.devRef .tc main_v22) = ReadP.val_main_v22 (F := F) x1 x4 x6)
    (h_v23 : W (Proc.devRef .tc main_v23) = ReadP.val_main_v23 (F := F) x1 x4 x6)
    (h_v24 : W (Proc.devRef .tc main_v24) = ReadP.val_main_v24 (F := F) x1 x4 x6)
    :
    after opsH W (Proc.devRef .tc main_v10) = ReadP.val_main_v10 (F := F) x1
    ∧ after opsH W (Proc.devRef .tc main_v20) = ReadP.val_main_v20 (F := F) x0 x2 x3 x5
    ∧ after opsH W (Proc.devRef .tc main_v21) = ReadP.val_main_v21 (F := F) x0 x2 x3 x5
    ∧ after opsH W (Proc.devRef .tc main_v23) = ReadP.val_main_v23 (F := F) x1 x4 x6
    ∧ after opsH W (Proc.devRef .tc main_v24) = ReadP.val_main_v24 (F := F) x1 x4 x6
    ∧ after opsH W (Proc.devRef .tc main_v31) = ReadP.val_main_v31 (F := F) x0 x1 x2 x3 x4 x5 x6 := by
  refine ⟨?_, ?_, ?_, ?_, ?_, ?_⟩
  · simp only [opsH]; after_results; exact h_v10
  · simp only [opsH]; after_results; exact h_v20
  · simp only [opsH]; after_results; exact h_v21
  · simp only [opsH]; after_results; exact h_v23
  · simp only [opsH]; after_results; exact h_v24
  · simp only [opsH]; after_results; rw [h_v19, h_v22]; rfl

/-- Stretch I (operations 41 to 49): from a valuation holding the named stages at the buffers the stretch reads, the stages it computes and
    the earlier ones later stretches still read. -/
theorem stretchI (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_v10 : W (Proc.devRef .tc main_v10) = ReadP.val_main_v10 (F := F) x1)
    (h_v20 : W (Proc.devRef .tc main_v20) = ReadP.val_main_v20 (F := F) x0 x2 x3 x5)
    (h_v21 : W (Proc.devRef .tc main_v21) = ReadP.val_main_v21 (F := F) x0 x2 x3 x5)
    (h_v23 : W (Proc.devRef .tc main_v23) = ReadP.val_main_v23 (F := F) x1 x4 x6)
    (h_v24 : W (Proc.devRef .tc main_v24) = ReadP.val_main_v24 (F := F) x1 x4 x6)
    (h_v31 : W (Proc.devRef .tc main_v31) = ReadP.val_main_v31 (F := F) x0 x1 x2 x3 x4 x5 x6)
    :
    after opsI W (Proc.devRef .tc main_v10) = ReadP.val_main_v10 (F := F) x1
    ∧ after opsI W (Proc.devRef .tc main_v21) = ReadP.val_main_v21 (F := F) x0 x2 x3 x5
    ∧ after opsI W (Proc.devRef .tc main_v24) = ReadP.val_main_v24 (F := F) x1 x4 x6
    ∧ after opsI W (Proc.devRef .tc main_v31) = ReadP.val_main_v31 (F := F) x0 x1 x2 x3 x4 x5 x6
    ∧ after opsI W (Proc.devRef .tc main_v38) = ReadP.val_main_v38 (F := F) x0 x1 x2 x3 x4 x5 x6 := by
  refine ⟨?_, ?_, ?_, ?_, ?_⟩
  · simp only [opsI]; after_results; exact h_v10
  · simp only [opsI]; after_results; exact h_v21
  · simp only [opsI]; after_results; exact h_v24
  · simp only [opsI]; after_results; exact h_v31
  · simp only [opsI]; after_results; rw [h_v20, h_v23]; rfl

/-- Stretch J (operations 50 to 59): from a valuation holding the named stages at the buffers the stretch reads, the stages it computes and
    the earlier ones later stretches still read. -/
theorem stretchJ (W : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (h_v10 : W (Proc.devRef .tc main_v10) = ReadP.val_main_v10 (F := F) x1)
    (h_v21 : W (Proc.devRef .tc main_v21) = ReadP.val_main_v21 (F := F) x0 x2 x3 x5)
    (h_v24 : W (Proc.devRef .tc main_v24) = ReadP.val_main_v24 (F := F) x1 x4 x6)
    (h_v31 : W (Proc.devRef .tc main_v31) = ReadP.val_main_v31 (F := F) x0 x1 x2 x3 x4 x5 x6)
    (h_v38 : W (Proc.devRef .tc main_v38) = ReadP.val_main_v38 (F := F) x0 x1 x2 x3 x4 x5 x6)
    :
    after opsJ W (Proc.devRef .tc main_v47) = ReadP.val_main_v47 (F := F) x0 x1 x2 x3 x4 x5 x6 := by
  simp only [opsJ]; after_results; rw [h_v10, h_v21, h_v24, h_v31, h_v38]; rfl

/-! ## The stretches chained -/

/-- The operations' fold at the result buffer: the last stage of the arguments' contents. -/
theorem after_ops_v47 (V : Valuation τ sig (Elt F)) (x0 : (⟨S1, .i32⟩ : BufTy).Contents (Elt F)) (x1 : (⟨S1x1x256, .f32⟩ : BufTy).Contents (Elt F)) (x2 : (⟨S100000x256, .f32⟩ : BufTy).Contents (Elt F)) (x3 : (⟨S768x256, .f32⟩ : BufTy).Contents (Elt F)) (x4 : (⟨S768x256, .f32⟩ : BufTy).Contents (Elt F)) (x5 : (⟨S768, .f32⟩ : BufTy).Contents (Elt F)) (x6 : (⟨S768, .f32⟩ : BufTy).Contents (Elt F))
    (f_arg0 : V (Proc.devRef .tc main_arg0) = x0)
    (f_arg1 : V (Proc.devRef .tc main_arg1) = x1)
    (f_arg2 : V (Proc.devRef .tc main_arg2) = x2)
    (f_arg3 : V (Proc.devRef .tc main_arg3) = x3)
    (f_arg4 : V (Proc.devRef .tc main_arg4) = x4)
    (f_arg5 : V (Proc.devRef .tc main_arg5) = x5)
    (f_arg6 : V (Proc.devRef .tc main_arg6) = x6)
    :
    after ops V (Proc.devRef .tc main_v47) = ReadP.val_main_v47 (F := F) x0 x1 x2 x3 x4 x5 x6 := by
  obtain ⟨f_arg1, f_arg2, f_arg3, f_arg4, f_arg5, f_arg6, f_v3⟩ := stretchA V x0 x1 x2 x3 x4 x5 x6 f_arg0 f_arg1 f_arg2 f_arg3 f_arg4 f_arg5 f_arg6
  obtain ⟨f_arg1, f_arg2, f_arg3, f_arg4, f_arg5, f_arg6, f_v3, f_v6⟩ := stretchB (after opsA V) x0 x1 x2 x3 x4 x5 x6 f_arg1 f_arg2 f_arg3 f_arg4 f_arg5 f_arg6 f_v3
  obtain ⟨f_arg1, f_arg3, f_arg4, f_arg5, f_arg6, f_v7⟩ := stretchC (after opsB (after opsA V)) x0 x1 x2 x3 x4 x5 x6 f_arg1 f_arg2 f_arg3 f_arg4 f_arg5 f_arg6 f_v3 f_v6
  obtain ⟨f_arg4, f_arg6, f_v10, f_v14⟩ := stretchD (after opsC (after opsB (after opsA V))) x0 x1 x2 x3 x4 x5 x6 f_arg1 f_arg3 f_arg4 f_arg5 f_arg6 f_v7
  obtain ⟨f_v10, f_v14, f_v18⟩ := stretchE (after opsD (after opsC (after opsB (after opsA V)))) x0 x1 x2 x3 x4 x5 x6 f_arg4 f_arg6 f_v10 f_v14
  obtain ⟨f_v10, f_v19, f_v20, f_v21, f_v22, f_v23, f_v24⟩ := stretchG (after opsE (after opsD (after opsC (after opsB (after opsA V))))) x0 x1 x2 x3 x4 x5 x6 f_v10 f_v14 f_v18
  obtain ⟨f_v10, f_v20, f_v21, f_v23, f_v24, f_v31⟩ := stretchH (after opsG (after opsE (after opsD (after opsC (after opsB (after opsA V)))))) x0 x1 x2 x3 x4 x5 x6 f_v10 f_v19 f_v20 f_v21 f_v22 f_v23 f_v24
  obtain ⟨f_v10, f_v21, f_v24, f_v31, f_v38⟩ := stretchI (after opsH (after opsG (after opsE (after opsD (after opsC (after opsB (after opsA V))))))) x0 x1 x2 x3 x4 x5 x6 f_v10 f_v20 f_v21 f_v23 f_v24 f_v31
  obtain f_v47 := stretchJ (after opsI (after opsH (after opsG (after opsE (after opsD (after opsC (after opsB (after opsA V)))))))) x0 x1 x2 x3 x4 x5 x6 f_v10 f_v21 f_v24 f_v31 f_v38
  rw [show (ops : List (HloOp τ sig (Elt F))) = opsA ++ (opsB ++ (opsC ++ (opsD ++ (opsE ++ (opsG ++ (opsH ++ (opsI ++ (opsJ)))))))) from rfl]
  rw [after_append, after_append, after_append, after_append, after_append, after_append, after_append, after_append]
  exact f_v47

/-- No operation writes an argument. -/
theorem after_ops_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6) := by
  refine ⟨?_, ?_, ?_, ?_, ?_, ?_, ?_⟩ <;>
    (simp only [ops, opsA, opsB, opsC, opsD, opsE, opsG, opsH, opsI, opsJ, List.cons_append, List.nil_append]; after_results_simp)

/-! ## The run -/

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.2 ⟨opsA_sub, List.forall_append.2 ⟨opsB_sub, List.forall_append.2 ⟨opsC_sub, List.forall_append.2 ⟨opsD_sub, List.forall_append.2 ⟨opsE_sub, List.forall_append.2 ⟨opsG_sub, List.forall_append.2 ⟨opsH_sub, List.forall_append.2 ⟨opsI_sub, opsJ_sub⟩⟩⟩⟩⟩⟩⟩⟩
theorem ops_fresh : (ops : List (HloOp τ sig (Elt F))).Forall fun op => op.fresh = ∅ :=
  List.forall_append.2 ⟨opsA_fresh, List.forall_append.2 ⟨opsB_fresh, List.forall_append.2 ⟨opsC_fresh, List.forall_append.2 ⟨opsD_fresh, List.forall_append.2 ⟨opsE_fresh, List.forall_append.2 ⟨opsG_fresh, List.forall_append.2 ⟨opsH_fresh, List.forall_append.2 ⟨opsI_fresh, opsJ_fresh⟩⟩⟩⟩⟩⟩⟩⟩

/-- On every device, from any memory with zero counters: every weakly fair execution of @main terminates with the result buffer at the
    last stage's value of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = ReadP.val_main_v47 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c =>
      have hk := after_ops_args (F := F) (launchContents m c)
      ⟨(h c main_v47).trans (after_ops_v47 (launchContents m c) _ _ _ _ _ _ _ rfl rfl rfl rfl rfl rfl rfl),
        (h c main_arg0).trans hk.1, (h c main_arg1).trans hk.2.1, (h c main_arg2).trans hk.2.2.1, (h c main_arg3).trans hk.2.2.2.1,
        (h c main_arg4).trans hk.2.2.2.2.1, (h c main_arg5).trans hk.2.2.2.2.2.1, (h c main_arg6).trans hk.2.2.2.2.2.2⟩)
    (run_seq scopedRefs_eq scopedSems_eq defs main (fun _ => ops) main_eq (fun _ => ops_sub) m ρ
      (fun _ => List.forall_iff_forall_mem.1 ops_fresh))

end Cert.ReferenceIdeal.RunH

end
-- ==== Proof.RefGru.lean ====
/-
  The reference's result, read at an index, is the specification's new hidden state.

  The id, not negative, is not wrapped, so the dynamic slice of the table starts at the id clamped into the rows
  0 … 99999 and at column 0: it is the table's row `row`, and reshaped to a vector and broadcast back to one row its entry
  `k` is the table's entry `(row, k)`. Each product contracts that row, or the hidden state, with the transposed weight
  matrix, so its entry `n` is the sum over `k` of the vector's entry `k` times the weights' entry `(n, k)`; with the bias
  broadcast along the row added, that is the specification's gate pre-activation `n`. The slices from 0, 256 and 512 read
  unit `j` of the reset, update and candidate block; the constants are the word 0x3F800000, which is 1; and the
  reference's 1 / (1 + e^(−x)) is the logistic function by definition. What is left is the specification's own
  expression, factor by factor and summand by summand in the same order.
-/
import proofs.«401761_j53102975648364_3_alg».proof.Proof.RefRead
import proofs.«401761_j53102975648364_3_alg».proof.Proof.Spec
import Idealize.ShloMosaic.Lib.DynamicIndex
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-! ## Indices

The reference's index maps, composed, at the indices this proof meets. -/

/-- The one index of a one-entry vector. -/
theorem idx_one (i : S1.Idx) : i = ix1 (0 : Fin 1) :=
  funext fun a => match a with | ⟨0, _⟩ => Fin.ext (Nat.lt_one_iff.mp (i 0).isLt)

theorem e8 (k : Fin 256) : ReadP.idx_main_v8 (ReadP.idx_main_v9 (ix2 (0 : Fin 1) k)) = ix2 (0 : Fin 1) k :=
  funext fun a => Fin.ext (by
    match a with
    | ⟨0, _⟩ => rfl
    | ⟨1, _⟩ => exact Nat.mod_eq_of_lt k.isLt)

theorem e10 (k : Fin 256) : ReadP.idx_main_v10 (ix2 (0 : Fin 1) k) = ix3 (0 : Fin 1) (0 : Fin 1) k :=
  funext fun a => Fin.ext (by
    match a with
    | ⟨0, _⟩ => rfl
    | ⟨1, _⟩ => rfl
    | ⟨2, _⟩ => show (0 * 256 + k.val) % 256 = k.val; have := k.isLt; omega)

theorem el12 (n : Fin 768) (k : Fin 256) : ReadP.lidx_main_v12 (ix2 (0 : Fin 1) n) k = ix2 (0 : Fin 1) k :=
  funext fun a => match a with | ⟨0, _⟩ => rfl | ⟨1, _⟩ => rfl
theorem er12 (n : Fin 768) (k : Fin 256) : ReadP.idx_main_v11 (ReadP.ridx_main_v12 (ix2 (0 : Fin 1) n) k) = ix2 n k :=
  funext fun a => match a with | ⟨0, _⟩ => rfl | ⟨1, _⟩ => rfl
theorem e13 (n : Fin 768) : ReadP.idx_main_v13 (ix2 (0 : Fin 1) n) = ix1 n :=
  funext fun a => match a with | ⟨0, _⟩ => rfl
theorem el16 (n : Fin 768) (k : Fin 256) : ReadP.lidx_main_v16 (ix2 (0 : Fin 1) n) k = ix2 (0 : Fin 1) k :=
  funext fun a => match a with | ⟨0, _⟩ => rfl | ⟨1, _⟩ => rfl
theorem er16 (n : Fin 768) (k : Fin 256) : ReadP.idx_main_v15 (ReadP.ridx_main_v16 (ix2 (0 : Fin 1) n) k) = ix2 n k :=
  funext fun a => match a with | ⟨0, _⟩ => rfl | ⟨1, _⟩ => rfl
theorem e17 (n : Fin 768) : ReadP.idx_main_v17 (ix2 (0 : Fin 1) n) = ix1 n :=
  funext fun a => match a with | ⟨0, _⟩ => rfl

/-- The three slices of each path read unit `j` of the reset, the update and the candidate block. -/
theorem e19 (j : Fin 256) : ReadP.idx_main_v19 (ix2 (0 : Fin 1) j) = ix2 (0 : Fin 1) (Cert.Spec.g0 j) :=
  funext fun a => match a with | ⟨0, _⟩ => rfl | ⟨1, _⟩ => rfl
theorem e20 (j : Fin 256) : ReadP.idx_main_v20 (ix2 (0 : Fin 1) j) = ix2 (0 : Fin 1) (Cert.Spec.g1 j) :=
  funext fun a => match a with | ⟨0, _⟩ => rfl | ⟨1, _⟩ => rfl
theorem e21 (j : Fin 256) : ReadP.idx_main_v21 (ix2 (0 : Fin 1) j) = ix2 (0 : Fin 1) (Cert.Spec.g2 j) :=
  funext fun a => match a with | ⟨0, _⟩ => rfl | ⟨1, _⟩ => rfl
theorem e22 (j : Fin 256) : ReadP.idx_main_v22 (ix2 (0 : Fin 1) j) = ix2 (0 : Fin 1) (Cert.Spec.g0 j) :=
  funext fun a => match a with | ⟨0, _⟩ => rfl | ⟨1, _⟩ => rfl
theorem e23 (j : Fin 256) : ReadP.idx_main_v23 (ix2 (0 : Fin 1) j) = ix2 (0 : Fin 1) (Cert.Spec.g1 j) :=
  funext fun a => match a with | ⟨0, _⟩ => rfl | ⟨1, _⟩ => rfl
theorem e24 (j : Fin 256) : ReadP.idx_main_v24 (ix2 (0 : Fin 1) j) = ix2 (0 : Fin 1) (Cert.Spec.g2 j) :=
  funext fun a => match a with | ⟨0, _⟩ => rfl | ⟨1, _⟩ => rfl

theorem e47 (i : S1x1x256.Idx) : ReadP.idx_main_v47 i = ix2 (0 : Fin 1) (⟨(i 2).val, (i 2).isLt⟩ : Fin 256) :=
  funext fun a => match a with | ⟨0, _⟩ => rfl | ⟨1, _⟩ => rfl

/-! ## The table's row -/

/-- The word 0x3F800000 denotes 1. -/
theorem one_word : Ideal.ofBits .f32 0x3F800000#32 = 1 := IdealRules.sign_bit.ideal_onePat .f32

/-- The id as a rank-0 value is the id. -/
theorem v0_read (x0 : (⟨S1, .i32⟩ : BufTy).Contents (Elt Ideal)) (j : S_.Idx) :
    ReadP.val_main_v0 (F := Ideal) x0 j = x0 (ix1 (0 : Fin 1)) := by
  unfold ReadP.val_main_v0
  exact congrArg x0 (idx_one _)

/-- An id that is not negative is not wrapped: the row's start is the id itself. -/
theorem v3_read (x0 : (⟨S1, .i32⟩ : BufTy).Contents (Elt Ideal)) (h0 : 0 ≤ (x0 (ix1 (0 : Fin 1))).toInt) (j : S_.Idx) :
    ReadP.val_main_v3 (F := Ideal) x0 j = x0 (ix1 (0 : Fin 1)) := by
  unfold ReadP.val_main_v3 ReadP.val_main_v1
  refine (select_slt_zero_of_nonneg (ReadP.val_main_v0 (F := Ideal) x0) _ _ j ?_).trans (v0_read x0 j)
  rw [v0_read]; exact h0

/-- The column's start is 0. -/
theorem v6_read (j : S_.Idx) : ReadP.val_main_v6 (F := Ideal) j = 0#32 := by
  unfold ReadP.val_main_v6 ReadP.val_main_v4
  exact select_slt_zero_of_nonneg (ReadP.val_main_c_1 (F := Ideal)) _ _ j (show (0 : Int) ≤ (0#32 : BitVec 32).toInt by decide)

/-- The row of the table at the clamped id fits in the table. -/
theorem row_fits (x : BitVec 32) : S100000x256.Slices ![Cert.Spec.row x, 0] S1x256 :=
  ⟨rfl, fun a => match a with
    | ⟨0, _⟩ => by show Cert.Spec.row x + 1 ≤ 100000; have := Cert.Spec.row_lt x; omega
    | ⟨1, _⟩ => by show 0 + 256 ≤ 256; omega⟩

/-- The dynamic slice of the table at the id, clamped into the table, is the table's row `row`; reshaped to a vector and
    broadcast back to one row, its entry `k` is the table's entry `(row, k)`. -/
theorem row_read (x0 : (⟨S1, .i32⟩ : BufTy).Contents (Elt Ideal)) (x2 : (⟨S100000x256, .f32⟩ : BufTy).Contents (Elt Ideal))
    (h0 : 0 ≤ (x0 (ix1 (0 : Fin 1))).toInt) (k : Fin 256) :
    ReadP.val_main_v9 (F := Ideal) x0 x2 (ix2 (0 : Fin 1) k) = x2 (ix2 (Cert.Spec.rowFin (x0 (ix1 (0 : Fin 1)))) k) := by
  rw [ReadP.val_main_v9_apply, ReadP.val_main_v8_apply, e8]
  unfold ReadP.val_main_v7
  rw [Host.dynamicSlice_eq_extractStridedSlice_of_clamp S1x256 x2 _ sliceFits_S100000x256_S1x256
    ![Cert.Spec.row (x0 (ix1 (0 : Fin 1))), 0] (fun a => by
      match a with
      | ⟨0, _⟩ =>
        show (min (max ((ReadP.val_main_v3 (F := Ideal) x0 (Shape.Idx.first h_S_)).toInt) 0) ((100000 - 1 : Nat) : Int)).toNat
          = Cert.Spec.row (x0 (ix1 (0 : Fin 1)))
        rw [v3_read x0 h0]; rfl
      | ⟨1, _⟩ =>
        show (min (max ((ReadP.val_main_v6 (F := Ideal) (Shape.Idx.first h_S_)).toInt) 0) ((256 - 256 : Nat) : Int)).toNat = 0
        rw [v6_read]; rfl) (row_fits _)]
  exact slice2_axis0_apply _ x2 _ (0 : Fin 1) k (Cert.Spec.rowFin (x0 (ix1 (0 : Fin 1)))) (Nat.add_zero _).symm

/-! ## The two gate vectors -/

/-- The input path: the table's row against the transposed input weights, plus the input bias. -/
theorem gate_i (x0 : (⟨S1, .i32⟩ : BufTy).Contents (Elt Ideal)) (x2 : (⟨S100000x256, .f32⟩ : BufTy).Contents (Elt Ideal))
    (x3 : (⟨S768x256, .f32⟩ : BufTy).Contents (Elt Ideal)) (x5 : (⟨S768, .f32⟩ : BufTy).Contents (Elt Ideal))
    (h0 : 0 ≤ (x0 (ix1 (0 : Fin 1))).toInt) (n : Fin 768) :
    ReadP.val_main_v14 (F := Ideal) x0 x2 x3 x5 (ix2 (0 : Fin 1) n)
      = Cert.Spec.gate (fun k => x2 (ix2 (Cert.Spec.rowFin (x0 (ix1 (0 : Fin 1)))) k)) (fun n k => x3 (ix2 n k)) (fun n => x5 (ix1 n)) n := by
  rw [ReadP.val_main_v14_apply, ReadP.val_main_v12_apply, ReadP.val_main_v13_apply, e13]
  simp only [el12, ReadP.val_main_v11_apply, er12, row_read x0 x2 h0]
  rfl

/-- The hidden path: the hidden state against the transposed hidden weights, plus the hidden bias. -/
theorem gate_h (x1 : (⟨S1x1x256, .f32⟩ : BufTy).Contents (Elt Ideal)) (x4 : (⟨S768x256, .f32⟩ : BufTy).Contents (Elt Ideal))
    (x6 : (⟨S768, .f32⟩ : BufTy).Contents (Elt Ideal)) (n : Fin 768) :
    ReadP.val_main_v18 (F := Ideal) x1 x4 x6 (ix2 (0 : Fin 1) n)
      = Cert.Spec.gate (fun k => x1 (ix3 (0 : Fin 1) (0 : Fin 1) k)) (fun n k => x4 (ix2 n k)) (fun n => x6 (ix1 n)) n := by
  rw [ReadP.val_main_v18_apply, ReadP.val_main_v16_apply, ReadP.val_main_v17_apply, e17]
  simp only [el16, ReadP.val_main_v15_apply, er16, ReadP.val_main_v10_apply, e10]
  rfl

/-! ## The result -/
/-- For a token id that is not negative, the reference's result at index `i` is the specification's new state at
    unit `i 2`, of the table's row the clamped id selects, the hidden state, the two weight matrices and the two biases. -/
theorem ref_gru (x0 : (⟨S1, .i32⟩ : BufTy).Contents (Elt Ideal)) (x1 : (⟨S1x1x256, .f32⟩ : BufTy).Contents (Elt Ideal))
    (x2 : (⟨S100000x256, .f32⟩ : BufTy).Contents (Elt Ideal)) (x3 x4 : (⟨S768x256, .f32⟩ : BufTy).Contents (Elt Ideal))
    (x5 x6 : (⟨S768, .f32⟩ : BufTy).Contents (Elt Ideal)) (h0 : 0 ≤ (x0 (ix1 (0 : Fin 1))).toInt) (i : S1x1x256.Idx) :
    ReadP.val_main_v47 (F := Ideal) x0 x1 x2 x3 x4 x5 x6 i
      = Cert.Spec.gru (fun k => x2 (ix2 (Cert.Spec.rowFin (x0 (ix1 (0 : Fin 1)))) k)) (fun k => x1 (ix3 (0 : Fin 1) (0 : Fin 1) k))
          (fun n k => x3 (ix2 n k)) (fun n k => x4 (ix2 n k)) (fun n => x5 (ix1 n)) (fun n => x6 (ix1 n))
          ⟨(i 2).val, (i 2).isLt⟩ := by
  rw [ReadP.val_main_v47_apply, e47]
  generalize (⟨(i 2).val, (i 2).isLt⟩ : Fin 256) = j
  -- the pointwise operations, entry by entry, down to the six slices and the hidden state
  simp only [ReadP.val_main_v46_apply, ReadP.val_main_v45_apply, ReadP.val_main_v44_apply, ReadP.val_main_v43_apply,
    ReadP.val_main_v42_apply, ReadP.val_main_v41_apply, ReadP.val_main_v40_apply, ReadP.val_main_v39_apply,
    ReadP.val_main_v38_apply, ReadP.val_main_v37_apply, ReadP.val_main_v36_apply, ReadP.val_main_v35_apply,
    ReadP.val_main_v34_apply, ReadP.val_main_v33_apply, ReadP.val_main_v32_apply, ReadP.val_main_v31_apply,
    ReadP.val_main_v30_apply, ReadP.val_main_v29_apply, ReadP.val_main_v28_apply, ReadP.val_main_v27_apply,
    ReadP.val_main_v26_apply, ReadP.val_main_v25_apply, ReadP.val_main_v24_apply, ReadP.val_main_v23_apply,
    ReadP.val_main_v22_apply, ReadP.val_main_v21_apply, ReadP.val_main_v20_apply, ReadP.val_main_v19_apply,
    ReadP.val_main_cst_apply, ReadP.val_main_cst_6_apply, ReadP.val_main_cst_7_apply, ReadP.val_main_cst_8_apply,
    ReadP.val_main_cst_9_apply, ReadP.val_main_v10_apply]
  -- each slice is a gate of the specification; the constants are 1; the host's operations are the extended reals'
  simp only [e19, e20, e21, e22, e23, e24, e10, gate_i x0 x2 x3 x5 h0, gate_h x1 x4 x6, Ideal.ofBits_def, one_word,
    Ideal.hostDivf_def, Ideal.hostUnary_exp_def, Ideal.hostNegf_def, Ideal.negf_def, Ideal.hostUnary_tanh_def,
    Ideal.addf_def, Ideal.mulf_def, Ideal.subf_def]
  -- the logistic function is 1 / (1 + e^(−x)) by definition
  rfl

end Cert.ReferenceIdeal.RefValue

end
-- ==== Proof.lean ====
/-
  One step of a gated recurrent unit for one token, as a Pallas kernel and as plain jnp: the two programs compute the same new hidden state.

  The kernel clips the token id between 0 and 99999 on the host, hands it to the pallas_call as a prefetched table, and inside the call
  copies that ONE row of the embedding table (left in HBM) into a scratch buffer by a transfer of its own, computing the hidden path
  `W_hh · h + b_hh` while the transfer is in flight, then the input path `W_ih · x + b_ih` from the row once it has waited for it, and
  the gates `r = σ(gi_r + gh_r)`, `z = σ(gi_z + gh_z)`, `n = tanh(gi_n + r · gh_n)`, `h' = (1 − z) · n + z · h`. The reference indexes
  the embedding table with the id as jnp does — a negative id counted from the end, then the slice clamped into the table — and computes the
  same expression with `σ` written out as `1 / (1 + e^(−x))`.

  * The three frames. Both kernel programs run to the end from every memory: the side condition the body assumes of the table's word (the
    named row lies inside the embedding table) follows from the clip, on every input. The reference is a straight line of host operations.
  * `preserves`: the ideal pass rewrote no operation, so there is nothing to state.
  * `algebraic`: over the extended reals the kernel's matrix products into a zero accumulator and the reference's `dot_general`s are the
    same sums, a change of float format is the identity, and `σ` is one function on both sides; no law of the reals is needed, and the
    finiteness of the float inputs is not used. What IS used is the precondition's last conjunct, `0 ≤ id`: for a negative id the
    reference reads the row `id + 100000` where the kernel reads row 0. For `0 ≤ id` both read row `min(id, 99999)`.
-/
import proofs.«401761_j53102975648364_3_alg».proof.Defs
import proofs.«401761_j53102975648364_3_alg».proof.Proof.Gen.Kernel
import proofs.«401761_j53102975648364_3_alg».proof.Proof.Gen.KernelIdeal
import proofs.«401761_j53102975648364_3_alg».proof.Proof.Gen.ReferenceIdeal
import proofs.«401761_j53102975648364_3_alg».proof.Proof.Gen.Pre_finite_inputs
import proofs.«401761_j53102975648364_3_alg».proof.Proof.KFrameClaim
import proofs.«401761_j53102975648364_3_alg».proof.Proof.KIResult
import proofs.«401761_j53102975648364_3_alg».proof.Proof.RefRunH
import proofs.«401761_j53102975648364_3_alg».proof.Proof.RefGru
import proofs.«401761_j53102975648364_3_alg».proof.Proof.PreFacts

set_option maxRecDepth 16384

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- Both programs end with the specification of the kernel side's argument arrays: the kernel by its frame run read at the result, the
    reference by its run read stage by stage, at arguments that agree and a token id that is not negative. -/
theorem algebraic : Cert.algebraic_KernelIdeal_ReferenceIdeal := by
  intro m ρ m' ρ' hpre hagree
  refine ⟨fun c => Cert.Spec.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1, (h c).1, (h c).2⟩) (Cert.KernelIdeal.Region.run_result m ρ)
  · refine (θ_run Cert.ReferenceIdeal.defs _ _).mono (fun _ h c => ?_) (Cert.ReferenceIdeal.RunH.run (F := Ideal) m' ρ')
    have h0 : 0 ≤ (((m' ((c.tc : Thread Cert.ReferenceIdeal.nD Cert.ReferenceIdeal.τ).loc Cert.ReferenceIdeal.main_arg0)) : Cert.ReferenceIdeal.S1.Idx → BitVec 32) (ValueIdx.ix1 (0 : Fin 1))).toInt := by
      rw [(hagree c).1]
      exact Cert.PreFacts.nonneg_of_pre _ _ _ _ _ _ _ (hpre c)
    have hv : Cert.ReferenceIdeal.ReadP.val_main_v47 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        = Cert.Spec.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
      rw [← (hagree c).1, ← (hagree c).2.1, ← (hagree c).2.2.1, ← (hagree c).2.2.2.1, ← (hagree c).2.2.2.2.1, ← (hagree c).2.2.2.2.2.1, ← (hagree c).2.2.2.2.2.2]
      exact funext fun i => Cert.ReferenceIdeal.RefValue.ref_gru _ _ _ _ _ _ _ h0 i
    exact ⟨(h c).1.trans hv, (h c).1.trans hv, (h c).2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
